-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S_ : Shape := ⟨0, ![]⟩

class Facts : Prop where
  bcast_S_S1x10000x128 : S_.BroadcastsInDim S1x10000x128 (![] : Fin 0 → Fin S1x10000x128.rank)
  reducesTo_S1x10000x128_S_d0_1_2 : S1x10000x128.ReducesTo [0, 1, 2] S_
  h_S_ : 0 < S_.numel
  bcast_S_S1x10000x10000 : S_.BroadcastsInDim S1x10000x10000 (![] : Fin 0 → Fin S1x10000x10000.rank)
  reducesTo_S1x10000x10000_S_d0_1_2 : S1x10000x10000.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S_S_d : S_.ReducesTo [] S_

variable [Facts]

def fn_part1 {F : FTy → Type} [FloatOps F] (main_arg4 : FVec F S128x128 .f32) (main_arg5 : FVec F S128 .f32) (main_arg6 : FVec F S_ .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S_ .f32 := Host.absf main_arg6
  let main_cst_10 : FVec F S_ .f32 := constant S_ .f32 0x7F800000#32
  let main_v30 : IVec S_ 1 := cmpf .olt main_v29 main_cst_10
  let main_c_11 : IVec S_ 1 := constantI S_ 1 1#1
  let main_v31 : IVec S_ 1 := (fun x v => Host.reduce IntOp.andi x v reducesTo_S_S_d h_S_) main_v30 main_c_11
  let main_v32 : IVec S_ 1 := andi main_v28 main_v31
  main_v32

def fn {F : FTy → Type} [FloatOps F] (main_arg0 : FVec F S1x10000x128 .f32) (main_arg1 : FVec F S1x10000x10000 .f32) (main_arg2 : FVec F S128x128 .f32) (main_arg3 : FVec F S128 .f32) (main_arg4 : FVec F S128x128 .f32) (main_arg5 : FVec F S128 .f32) (main_arg6 : FVec F S_ .f32) : IVec S_ 1 :=
  let main_v0 : FVec F S1x10000x128 .f32 := Host.absf main_arg0
  let main_cst : FVec F S_ .f32 := constant S_ .f32 0x7F800000#32
  let main_v1 : FVec F S1x10000x128 .f32 := broadcastInDim S1x10000x128 ![] bcast_S_S1x10000x128 main_cst
  let main_v2 : IVec S1x10000x128 1 := cmpf .olt main_v0 main_v1
  let main_c : IVec S_ 1 := constantI S_ 1 1#1
  let main_v3 : IVec S_ 1 := (fun x v => Host.reduce IntOp.andi x v reducesTo_S1x10000x128_S_d0_1_2 h_S_) main_v2 main_c
  let main_v4 : FVec F S1x10000x10000 .f32 := Host.absf main_arg1
  let main_cst_0 : FVec F S_ .f32 := constant S_ .f32 0x7F800000#32
  let main_v5 : FVec F S1x10000x10000 .f32 := broadcastInDim S1x10000x10000 ![] bcast_S_S1x10000x10000 main_cst_0
  let main_v6 : IVec S1x10000x10000 1 := cmpf .olt main_v4 main_v5
  let main_c_1 : IVec S_ 1 := constantI S_ 1 1#1
  let main_v7 : IVec S_ 1 := (fun x v => Host.reduce IntOp.andi x v reducesTo_S1x10000x10000_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S_ : Shape := ⟨0, ![]⟩
abbrev S10000x128 : Shape := ⟨2, ![10000, 128]⟩
abbrev S1x128 : Shape := ⟨2, ![1, 128]⟩
abbrev S1x1 : Shape := ⟨2, ![1, 1]⟩
abbrev S1x400x10000 : Shape := ⟨3, ![1, 400, 10000]⟩
abbrev S400x128 : Shape := ⟨2, ![400, 128]⟩
abbrev S400x10000 : Shape := ⟨2, ![400, 10000]⟩

abbrev nBuf : Space → Nat
  | .hbm => 16
  | .vmem => 13
  | .smem => 0
  | _ => 0

abbrev bufTy : (tb : Table) → Fin (tcTables nBuf tb) → BufTy
  | .hbm, ⟨0, _⟩ => ⟨S1x10000x128, .f32⟩
  | .hbm, ⟨1, _⟩ => ⟨S1x10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S_, .f32⟩
  | .hbm, ⟨7, _⟩ => ⟨S10000x128, .f32⟩
  | .hbm, ⟨8, _⟩ => ⟨S128x128, .f32⟩
  | .hbm, ⟨9, _⟩ => ⟨S128x128, .f32⟩
  | .hbm, ⟨10, _⟩ => ⟨S1x128, .f32⟩
  | .hbm, ⟨11, _⟩ => ⟨S1x128, .f32⟩
  | .hbm, ⟨12, _⟩ => ⟨S1x1, .f32⟩
  | .hbm, ⟨13, _⟩ => ⟨S10000x128, .f32⟩
  | .hbm, ⟨14, _⟩ => ⟨S10000x128, .f32⟩
  | .hbm, ⟨15, _⟩ => ⟨S1x10000x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S10000x128, .f32⟩
  | .local _ .vmem, ⟨4, _⟩ => ⟨S1x400x10000, .f32⟩
  | .local _ .vmem, ⟨5, _⟩ => ⟨S1x400x10000, .f32⟩
  | .local _ .vmem, ⟨6, _⟩ => ⟨S10000x128, .f32⟩
  | .local _ .vmem, ⟨7, _⟩ => ⟨S128x128, .f32⟩
  | .local _ .vmem, ⟨8, _⟩ => ⟨S1x128, .f32⟩
  | .local _ .vmem, ⟨9, _⟩ => ⟨S1x1, .f32⟩
  | .local _ .vmem, ⟨10, _⟩ => ⟨S400x128, .f32⟩
  | .local _ .vmem, ⟨11, _⟩ => ⟨S400x128, .f32⟩
  | .local _ .vmem, ⟨12, _⟩ => ⟨S10000x128, .f32⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc1_scratch0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem5_1 : DmaSem sig := 11

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10000x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨2, ![2, 25], ![false, false]⟩

def k1_cond1 (i : grid1.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_2 : BitVec 32 := 0#32
  let v4 : BitVec 1 := Scalar.cmpi .ne v3 c0_i32_2
  v4

def k1_off1 (i : grid1.Coords) : Fin 2 → Nat :=
  let arg1 : BitVec 32 := BitVec.ofNat 32 (i 1).val
  let c400_i32 : BitVec 32 := 400#32
  let v27 : BitVec 32 := Scalar.muli arg1 c400_i32
  let v28 : Index := Scalar.indexCast v27
  let c0_15 : Index := 0#32
  ![v28.toNat, 0]
def k1_cond2 (i : grid1.Coords) : BitVec 1 :=
  let arg0 : BitVec 32 := BitVec.ofNat 32 (i 0).val
  let c1_i32 : BitVec 32 := 1#32
  let v5 : BitVec 1 := Scalar.cmpi .eq arg0 c1_i32
  let v6 : BitVec 32 := Scalar.extui v5
  let c0_i32_3 : BitVec 32 := 0#32
  let v7 : BitVec 1 := Scalar.cmpi .ne v6 c0_i32_3
  v7

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage1_0 : Fin 2 → Memref sig .tc .vmem S1x400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S400x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S1x10000x128_S10000x128 : S1x10000x128.ShapeCasts S10000x128
  transposes_S128x128_S128x128_1_0 : S128x128.Transposes [1, 0] S128x128
  shapeCasts_S128_S1x128 : S128.ShapeCasts S1x128
  shapeCasts_S_S1x1 : S_.ShapeCasts S1x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S1x400x10000_S1x400x10000_0_0_0 : ∀ a, (![0, 0, 0] : Fin 3 → Nat) a + S1x400x10000.size a ≤ S1x400x10000.size a
  h_S1x400x10000 : 0 < S1x400x10000.numel
  shapeCasts_S1x400x10000_S400x10000 : S1x400x10000.ShapeCasts S400x10000
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  broadcasts_S1x128_S400x128 : S1x128.Broadcasts S400x128
  h_S400x128 : 0 < S400x128.numel
  shapeCasts_S400x128_S400x128 : S400x128.ShapeCasts S400x128
  inb_S400x128_S400x128_0_0 : ∀ a, (![0, 0] : Fin 2 → Nat) a + S400x128.size a ≤ S400x128.size a
  shapeCasts_S10000x128_S1x10000x128 : S10000x128.ShapeCasts S1x10000x128
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hrank1 : 0 < grid1.rank
  k1_off1_inb : ∀ i : grid1.Coords, ∀ (k1_h1 : k1_cond1 i = 1#1), ∀ a, (k1_off1 i) a + S400x128.size a ≤ S10000x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x400x10000.size a ≤ S1x10000x10000.size a
  hwx1_0 : ∀ i : grid1.Coords, EltTy.bits .f32 = 32 ∨ (Rect.block (s := S1x10000x10000) S1x400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x128.size a ≤ S10000x128.size a
  hwx1_5 : ∀ i : grid1.Coords, EltTy.bits .f32 = 32 ∨ (Rect.block (s := S10000x128) S400x128.size (cc1_transform_5 i) (hinb1_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.whole (Memref.whole main_v0) false false (stage0_0 0) (sem0_0 0) (Memref.isWhole_whole _) (hstage0_0 0)

abbrev win0_1 : Pipeline.Window sig grid0 :=
  Pipeline.Window.whole (Memref.whole main_v1) false false (stage0_1 0) (sem0_1 0) (Memref.isWhole_whole _) (hstage0_1 0)

abbrev win0_2 : Pipeline.Window sig grid0 :=
  Pipeline.Window.whole (Memref.whole main_v3) false false (stage0_2 0) (sem0_2 0) (Memref.isWhole_whole _) (hstage0_2 0)

abbrev win0_3 : Pipeline.Window sig grid0 :=
  Pipeline.Window.whole (Memref.whole main_v6) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1x400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S400x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S_ : Shape := ⟨0, ![]⟩
abbrev S1x1x128 : Shape := ⟨3, ![1, 1, 128]⟩

abbrev nBuf : Space → Nat
  | .hbm => 26
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S1x10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S_, .f32⟩
  | .hbm, ⟨7, _⟩ => ⟨S1x10000x128, .f32⟩
  | .hbm, ⟨8, _⟩ => ⟨S1x1x128, .f32⟩
  | .hbm, ⟨9, _⟩ => ⟨S1x10000x128, .f32⟩
  | .hbm, ⟨10, _⟩ => ⟨S1x10000x128, .f32⟩
  | .hbm, ⟨11, _⟩ => ⟨S1x10000x128, .f32⟩
  | .hbm, ⟨12, _⟩ => ⟨S_, .f32⟩
  | .hbm, ⟨13, _⟩ => ⟨S1x10000x128, .f32⟩
  | .hbm, ⟨14, _⟩ => ⟨S1x10000x128, .f32⟩
  | .hbm, ⟨15, _⟩ => ⟨S_, .f32⟩
  | .hbm, ⟨16, _⟩ => ⟨S1x10000x128, .f32⟩
  | .hbm, ⟨17, _⟩ => ⟨S1x10000x128, .f32⟩
  | .hbm, ⟨18, _⟩ => ⟨S1x10000x128, .f32⟩
  | .hbm, ⟨19, _⟩ => ⟨S1x10000x128, .f32⟩
  | .hbm, ⟨20, _⟩ => ⟨S1x10000x128, .f32⟩
  | .hbm, ⟨21, _⟩ => ⟨S1x10000x128, .f32⟩
  | .hbm, ⟨22, _⟩ => ⟨S1x1x128, .f32⟩
  | .hbm, ⟨23, _⟩ => ⟨S1x10000x128, .f32⟩
  | .hbm, ⟨24, _⟩ => ⟨S1x10000x128, .f32⟩
  | .hbm, ⟨25, _⟩ => ⟨S1x10000x128, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S1x10000x128_0_1_2 : S1x1x128.BroadcastsInDim S1x10000x128 (![0, 1, 2] : Fin 3 → Fin S1x10000x128.rank)
  bcast_S_S1x10000x128 : S_.BroadcastsInDim S1x10000x128 (![] : Fin 0 → Fin S1x10000x128.rank)
  dot_S1x10000x128_S128x128_S1x10000x128_2_1_01_0_n_n_wf : DotDims.WF S1x10000x128 S128x128 S1x10000x128 [2] [1] [0, 1] [0] [] []
  dot_S1x10000x10000_S1x10000x128_S1x10000x128_2_1_1_2_0_0_wf : DotDims.WF S1x10000x10000 S1x10000x128 S1x10000x128 [2] [1] [1] [2] [0] [0]

variable [Facts₀]

def dot_S1x10000x128_S128x128_S1x10000x128_2_1_01_0_n_n : DotDims S1x10000x128 S128x128 S1x10000x128 where
  lhsContracting := [2]
  rhsContracting := [1]
  lhsNonContracting := [0, 1]
  rhsNonContracting := [0]
  lhsBatch := []
  rhsBatch := []
  wf := dot_S1x10000x128_S128x128_S1x10000x128_2_1_01_0_n_n_wf
def dot_S1x10000x10000_S1x10000x128_S1x10000x128_2_1_1_2_0_0 : DotDims S1x10000x10000 S1x10000x128 S1x10000x128 where
  lhsContracting := [2]
  rhsContracting := [1]
  lhsNonContracting := [1]
  rhsNonContracting := [2]
  lhsBatch := [0]
  rhsBatch := [0]
  wf := dot_S1x10000x10000_S1x10000x128_S1x10000x128_2_1_1_2_0_0_wf

class Facts : Prop extends Facts₀ where

variable [Facts]
-- ==== Proof.Bits.Dense.lean ====
/-
  The kernel's first pallas_call: one gridless region whose body loads the whole node-feature matrix
  (10000 × 128), the transposed first weight matrix (128 × 128) and the first bias as a row (1 × 128), and stores
  the matrix product plus the bias row broadcast down the rows, whole, into the region's one output.
  Stated at a parameter `V`, the contents of the core's buffers when the region is entered, and at any float
  instance: what the output's buffer holds after the body (the single whole store over the three loaded blocks),
  the body's triple, the region's proof data, and the body obligation at the region's only point.
-/
import proofs.«120533_g28707561406990_cont_9to1_1291_9_alg».proof.Proof.Gen.Kernel.Launch
import proofs.«120533_g28707561406990_cont_9to1_1291_9_alg».proof.Proof.Gen.Kernel.Skeleton
import proofs.«120533_g28707561406990_cont_9to1_1291_9_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Dense

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at the region's point, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block when the body runs: the features, -/
theorem found_x {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- the transposed weights, -/
theorem found_w {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- the bias row. -/
theorem found_b {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's accesses: every load and the one store are of a whole buffer -/

abbrev rX : Rect S10000x128 := Rect.unit (s := S10000x128) ![0, 0] S10000x128.size inb_S10000x128_S10000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-- The output's staging buffer after the body: the product-plus-bias payload of the three loaded blocks, stored whole. -/
def hidden (x : Vec F S10000x128 .f32) (w : Vec F S128x128 .f32) (b : Vec F S1x128 .f32) : Vec F S10000x128 .f32 :=
  View.canon [⟨rX, k0_pay1 (View.ld x rX) (View.ld w rW) (View.ld b rB)⟩]

/-- The one store covers the buffer. -/
theorem hidden_cover (p : Vec F S10000x128 .f32) (y : S10000x128.Idx) :
    ∃ pc ∈ ([⟨rX, p⟩] : List (View.Piece (Elt F) S10000x128 .f32)), y ∈ pc.1.set :=
  View.cover_of_tiled [⟨rX, p⟩] S10000x128.size (by rfl) y

/-! ## The body's triple -/

set_option maxHeartbeats 1000000 in
/-- The body on whole staging memrefs, the inputs' at contents `x`, `w`, `b` and the output's at anything, runs to the
    continuation holding the inputs' as they were and the output's at `hidden x w b`. -/
theorem run_body (c : Dev nD) (E : Set ℕ) (arg0 : Memref sig .tc .vmem S10000x128 .f32) (harg0 : arg0.IsWhole)
    (arg1 : Memref sig .tc .vmem S128x128 .f32) (harg1 : arg1.IsWhole) (arg2 : Memref sig .tc .vmem S1x128 .f32) (harg2 : arg2.IsWhole)
    (arg3 : Memref sig .tc .vmem S10000x128 .f32) (harg3 : arg3.IsWhole)
    (x : Vec F S10000x128 .f32) (w : Vec F S128x128 .f32) (b : Vec F S1x128 .f32) (K : PUnit → sProp 𝕄) :
    iprop(owns (c : Thread nD τ) arg0 fullShare x ∗ owns (c : Thread nD τ) arg1 fullShare w ∗ owns (c : Thread nD τ) arg2 fullShare b
        ∗ (∃ d, owns (c : Thread nD τ) arg3 fullShare d)
        ∗ (iprop(owns (c : Thread nD τ) arg0 fullShare x ∗ owns (c : Thread nD τ) arg1 fullShare w ∗ owns (c : Thread nD τ) arg2 fullShare b
            ∗ owns (c : Thread nD τ) arg3 fullShare (hidden x w b)) -∗ K ⟨⟩))
      ⊢ wp frame (wpE (defs₀ (F := F)) Variants.none c none) E (cc0__fc1_kernel arg0 harg0 arg1 harg1 arg2 harg2 arg3 harg3) K := by
  simp only [cc0__fc1_kernel_eq_skeleton]; unfold cc0__fc1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (hidden_cover _)

/-! ## The region's proof data -/

/-- The arrays as the region finds them; after the body each input's buffer at its block and the output's at
    `hidden` of the input blocks; the invariant the scoped buffers no window stages and the generator register,
    untouched; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => hidden (blk V c 0 t) (blk V c 1 t) (blk V c 2 t)
  Φ _ := Pipeline.ΦA spec0 c
  q _ := fullShare
  owed _ := 0

theorem dat_A (c : Dev nD) (w : Fin cfg0.W) : (dat V c).A w = V c (Pipeline.arrRef spec0 w) := by
  dsimp only [dat]

theorem after_x (c : Dev nD) (t : Fin cfg0.N) : (dat V c).after 0 t = blk V c 0 t := by dsimp only [dat]
theorem after_w (c : Dev nD) (t : Fin cfg0.N) : (dat V c).after 1 t = blk V c 1 t := by dsimp only [dat]
theorem after_b (c : Dev nD) (t : Fin cfg0.N) : (dat V c).after 2 t = blk V c 2 t := by dsimp only [dat]
theorem after_h (c : Dev nD) (t : Fin cfg0.N) :
    (dat V c).after 3 t = hidden (blk V c 0 t) (blk V c 1 t) (blk V c 2 t) := by dsimp only [dat]

theorem before_x (c : Dev nD) (t : Fin cfg0.N) (d) : (dat V c).before 0 t d = blk V c 0 t :=
  found_x V (dat V c) (dat_A V c 0) (after_x V c) t d
theorem before_w (c : Dev nD) (t : Fin cfg0.N) (d) : (dat V c).before 1 t d = blk V c 1 t :=
  found_w V (dat V c) (dat_A V c 1) (after_w V c) t d
theorem before_b (c : Dev nD) (t : Fin cfg0.N) (d) : (dat V c).before 2 t d = blk V c 2 t :=
  found_b V (dat V c) (dat_A V c 2) (after_b V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at the point: the inputs' memrefs hold their blocks, so `run_body` applies; the invariant and the core's
    `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_w, before_b]
  rw [show (dat V c).Φ t.succ = (dat V c).Φ t.castSucc from rfl,
    show (dat V c).owesAt () t.succ = (dat V c).owesAt () t.castSucc from rfl,
    after_x, after_w, after_b, after_h]
  iintro ⟨HΦ, Ho, ⟨%d0, H0⟩, ⟨%d1, H1⟩, ⟨%d2, H2⟩, ⟨%d3, H3⟩⟩
  iapply (run_body c Set.univ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dat (F := F) V c) (defs₀ (F := F)) Variants.none () Set.univ := fun t => by
  rw [bigSep_W0, bigSep_W0]
  exact sound_body V c t

end Cert.Kernel.Dense

end
-- ==== Proof.Bits.AggRuns.lean ====
/-
  The second pallas_call's body, run once in each of its two phases (the grid is 2 × 25: phase g, strip m).
  Phase 0 at strip m: load the adjacency strip (400 rows, all 10000 columns), the whole first hidden matrix, the
  second weights, the second bias row and the activation slope; form (strip · hidden), apply x ↦ max(x,0) + a·min(x,0),
  multiply by the second weights, add the bias row, and store the 400 × 128 result into rows [400m, 400m+400) of the
  10000 × 128 scratch, the other rows of the scratch staying as they were. The output's staging buffer is not touched.
  Phase 1 at strip m: load the adjacency strip and the WHOLE scratch, and store (strip · scratch) whole into the
  output's staging buffer; the scratch stays as it was.
-/
import proofs.«120533_g28707561406990_cont_9to1_1291_9_alg».proof.Proof.Gen.Kernel.Launch
import proofs.«120533_g28707561406990_cont_9to1_1291_9_alg».proof.Proof.Gen.Kernel.Skeleton
import proofs.«120533_g28707561406990_cont_9to1_1291_9_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Agg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

abbrev rA : Rect S1x400x10000 := Rect.unit (s := S1x400x10000) ![0, 0, 0] S1x400x10000.size inb_S1x400x10000_S1x400x10000_0_0_0
abbrev rH : Rect S10000x128 := Rect.unit (s := S10000x128) ![0, 0] S10000x128.size inb_S10000x128_S10000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rP : Rect S1x1 := Rect.unit (s := S1x1) ![0, 0] S1x1.size inb_S1x1_S1x1_0_0
abbrev rO : Rect S400x128 := Rect.unit (s := S400x128) ![0, 0] S400x128.size inb_S400x128_S400x128_0_0
/-- Rows [400m, 400m+400) of the scratch, at a phase-0 point. -/
abbrev slab (i : grid1.Coords) (h : k1_cond1 i = 1#1) : Rect S10000x128 :=
  Rect.unit (s := S10000x128) (k1_off1 i) S400x128.size (k1_off1_inb i h)

/-- What phase 0 stores: the second layer's rows for this strip, from the loaded blocks. -/
def slabPay (a : Vec F S1x400x10000 .f32) (h : Vec F S10000x128 .f32) (w : Vec F S128x128 .f32) (b : Vec F S1x128 .f32)
    (p : Vec F S1x1 .f32) : Vec F S400x128 .f32 :=
  k1_pay2 (View.ld a rA) (View.ld h rH) (View.ld p rP) (View.ld w rW) (View.ld b rB)

/-- What phase 1 leaves in the output's staging buffer: the strip times the scratch, stored whole. -/
def outBlk (a : Vec F S1x400x10000 .f32) (s : Vec F S10000x128 .f32) : Vec F S400x128 .f32 :=
  View.canon [⟨rO, k1_pay3 (View.ld a rA) (View.ld s rH)⟩]

theorem outBlk_cover (p : Vec F S400x128 .f32) (y : S400x128.Idx) :
    ∃ pc ∈ ([⟨rO, p⟩] : List (View.Piece (Elt F) S400x128 .f32)), y ∈ pc.1.set :=
  View.cover_of_tiled [⟨rO, p⟩] S400x128.size (by rfl) y

/-- One store through a rectangle reads back as the payload on the rectangle and the old contents off it. -/
theorem read_store_one {sig : RefSig} {κ : Kind} {sp : Space} {S : Shape} {e : EltTy} {Val : EltTy → Type}
    (v : View sig κ sp S e) (f : v.ty.Contents Val) (r : Rect S) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [View.read_writes_cons_emb, Rect.overlay_emb]
  · rw [Rect.overlay_of_not_mem _ _ _ hy]
    exact View.read_writes_apply_of_forall_not_mem v f y _ (fun p hp => by
      rw [List.mem_singleton] at hp; subst hp; exact hy)

/-! ## Phase 0 -/

set_option maxHeartbeats 2000000 in
theorem run_fill (c : Dev nD) (i : grid1.Coords)
    (arg2 : Memref sig .tc .vmem S1x400x10000 .f32) (harg2 : arg2.IsWhole) (arg3 : Memref sig .tc .vmem S10000x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S1x1 .f32) (harg6 : arg6.IsWhole) (arg7 : Memref sig .tc .vmem S400x128 .f32) (harg7 : arg7.IsWhole)
    (arg8 : Memref sig .tc .vmem S10000x128 .f32) (harg8 : arg8.IsWhole)
    (hcA : k1_cond1 i = 1#1) (hcB : ¬ k1_cond2 i = 1#1)
    (a : Vec F S1x400x10000 .f32) (h : Vec F S10000x128 .f32) (w : Vec F S128x128 .f32) (b : Vec F S1x128 .f32) (p : Vec F S1x1 .f32)
    (s : Vec F S10000x128 .f32) :
    ∀ (E : Set ℕ) (K : PUnit → sProp 𝕄),
      iprop(owns (c : Thread nD τ) arg2 fullShare a ∗ owns (c : Thread nD τ) arg3 fullShare h ∗ owns (c : Thread nD τ) arg4 fullShare w
          ∗ owns (c : Thread nD τ) arg5 fullShare b ∗ owns (c : Thread nD τ) arg6 fullShare p ∗ owns (c : Thread nD τ) arg8 fullShare s
          ∗ (iprop(owns (c : Thread nD τ) arg2 fullShare a ∗ owns (c : Thread nD τ) arg3 fullShare h ∗ owns (c : Thread nD τ) arg4 fullShare w
              ∗ owns (c : Thread nD τ) arg5 fullShare b ∗ owns (c : Thread nD τ) arg6 fullShare p
              ∗ owns (c : Thread nD τ) arg8 fullShare ((slab i hcA).overlay s (slabPay a h w b p))) -∗ K ⟨⟩))
        ⊢ wp frame (wpE (defs₀ (F := F)) Variants.none c none) E
            (cc1__agg_kernel i arg2 harg2 arg3 harg3 arg4 harg4 arg5 harg5 arg6 harg6 arg7 harg7 arg8 harg8) K := by
  intro E K
  simp only [cc1__agg_kernel_eq_skeleton]; unfold cc1__agg_kernel_skel
  unfold owns
  iintro ⟨⟨%f2, %hf2, H2⟩, ⟨%f3, %hf3, H3⟩, ⟨%f4, %hf4, H4⟩, ⟨%f5, %hf5, H5⟩, ⟨%f6, %hf6, H6⟩, ⟨%f8, %hf8, H8⟩, Hk⟩
  subst hf2 hf3 hf4 hf5 hf6 hf8
  sl_exec (disch := first | exact hcA | exact hcB)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H8
  ipureintro
  exact read_store_one _ _ _ _

/-! ## Phase 1 -/

set_option maxHeartbeats 2000000 in
theorem run_out (c : Dev nD) (i : grid1.Coords)
    (arg2 : Memref sig .tc .vmem S1x400x10000 .f32) (harg2 : arg2.IsWhole) (arg3 : Memref sig .tc .vmem S10000x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S1x1 .f32) (harg6 : arg6.IsWhole) (arg7 : Memref sig .tc .vmem S400x128 .f32) (harg7 : arg7.IsWhole)
    (arg8 : Memref sig .tc .vmem S10000x128 .f32) (harg8 : arg8.IsWhole)
    (hcA : ¬ k1_cond1 i = 1#1) (hcB : k1_cond2 i = 1#1)
    (a : Vec F S1x400x10000 .f32) (s : Vec F S10000x128 .f32) :
    ∀ (E : Set ℕ) (K : PUnit → sProp 𝕄),
      iprop(owns (c : Thread nD τ) arg2 fullShare a ∗ owns (c : Thread nD τ) arg8 fullShare s ∗ (∃ d, owns (c : Thread nD τ) arg7 fullShare d)
          ∗ (iprop(owns (c : Thread nD τ) arg2 fullShare a ∗ owns (c : Thread nD τ) arg8 fullShare s
              ∗ owns (c : Thread nD τ) arg7 fullShare (outBlk a s)) -∗ K ⟨⟩))
        ⊢ wp frame (wpE (defs₀ (F := F)) Variants.none c none) E
            (cc1__agg_kernel i arg2 harg2 arg3 harg3 arg4 harg4 arg5 harg5 arg6 harg6 arg7 harg7 arg8 harg8) K := by
  intro E K
  simp only [cc1__agg_kernel_eq_skeleton]; unfold cc1__agg_kernel_skel
  unfold owns
  iintro ⟨⟨%f2, %hf2, H2⟩, ⟨%f8, %hf8, H8⟩, ⟨%d7, %f7, -, H7⟩, Hk⟩
  subst hf2 hf8
  sl_exec (disch := first | exact hcA | exact hcB)
  sl_step
  iapply Hk
  isplitl [H2]
  · iexists f2; isplitr; · ipureintro; rfl
    iexact H2
  isplitl [H8]
  · iexists f8; isplitr; · ipureintro; rfl
    iexact H8
  iexists _; isplitr
  swap; · iexact H7
  ipureintro
  exact View.read_writes_eq_canon _ _ _ (outBlk_cover _)

end Cert.Kernel.Agg

end
-- ==== Proof.Bits.AggDat.lean ====
/-
  The second pallas_call's proof data, at a parameter `V` (the core's buffers when the region is entered) and any float
  instance. The grid is 2 × 25, walked row-major: points 0..24 are phase 0 (strip m = t), points 25..49 phase 1
  (strip m = t − 25). The scratch (10000 × 128) is no window: it lives in the region's invariant. Before point n the
  invariant says the scratch holds, on rows [400·t', 400·t'+400) for every phase-0 point t' < n, the rows that point
  computed (`rows t'`); the other rows are whatever they were. After the 25 phase-0 points every row is covered, so
  the scratch is one function of the entry contents (`second`), and each phase-1 point stores strip · `second` into
  the output's staging buffer. The output window is idle in phase 0 (its block index is parked at 0 and it is not
  written back there), and is written back at every phase-1 point.
-/
import proofs.«120533_g28707561406990_cont_9to1_1291_9_alg».proof.Proof.Bits.AggRuns
import Idealize.ShloMosaic.Lib.ValueIdx

set_option maxRecDepth 16384

noncomputable section

namespace Cert.Kernel.Agg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-! ## The windows' blocks -/

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block when the body runs, fetched at that point or not: the adjacency strip, -/
theorem found_adj {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- the first hidden matrix, -/
theorem found_hid {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- the transposed second weights, -/
theorem found_w2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- the second bias row, -/
theorem found_b2 {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- the activation slope. -/
theorem found_pa {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-! ## The grid in closed form -/

/-- Phase 0 is the first 25 points, -/
theorem fill_iff : ∀ t : Fin cfg1.N, k1_cond1 (grid1.coords t) = 1#1 ↔ t.val < 25 :=
  (by decide +kernel : ∀ t : Fin grid1.N, k1_cond1 (grid1.coords t) = 1#1 ↔ t.val < 25)
/-- phase 1 the last 25; -/
theorem out_iff : ∀ t : Fin cfg1.N, k1_cond2 (grid1.coords t) = 1#1 ↔ 25 ≤ t.val :=
  (by decide +kernel : ∀ t : Fin grid1.N, k1_cond2 (grid1.coords t) = 1#1 ↔ 25 ≤ t.val)
/-- the scratch rows a point addresses start at 400 times its strip; -/
theorem off_eq : ∀ t : Fin cfg1.N, k1_off1 (grid1.coords t) = ![400 * (t.val % 25), 0] :=
  (by decide +kernel : ∀ t : Fin grid1.N, k1_off1 (grid1.coords t) = ![400 * (t.val % 25), 0])
/-- the output window is idle exactly in phase 0 -/
theorem idle_out : ∀ t : Fin cfg1.N, cfg1.idle 5 (cfg1.grid.coords t) = decide (t.val < 25) :=
  (by decide +kernel : ∀ t : Fin grid1.N, idle1 5 (grid1.coords t) = decide (t.val < 25))
/-- and written back exactly in phase 1. -/
theorem flush_out : ∀ t : Fin cfg1.N, (cfg1.win 5).flush t = decide (25 ≤ t.val) :=
  (by decide +kernel : ∀ t : Fin grid1.N, win1_5.flush t = decide (25 ≤ t.val))

/-! ## The scratch -/

/-- The rows phase-0 point `t` stores into the scratch. -/
def rows (c : Dev nD) (t : Fin cfg1.N) : Vec F S400x128 .f32 :=
  slabPay (blk V c 0 t) (blk V c 1 t) (blk V c 2 t) (blk V c 3 t) (blk V c 4 t)

/-- The phase-0 point that fills the strip holding row `r`. -/
def stripPt (r : Nat) : Fin cfg1.N :=
  ⟨(r / 400) % 25, lt_of_lt_of_eq (Nat.lt_trans (Nat.mod_lt _ (by decide)) (by decide : 25 < 50)) N_1.symm⟩

/-- The scratch after phase 0, as one function of the entry contents: row `r` is row `r mod 400` of what the point of
    strip `r / 400` stored. -/
def second (c : Dev nD) : Vec F S10000x128 .f32 := fun y =>
  rows V c (stripPt (y 0).val) (ix2 (⟨(y 0).val % 400, Nat.mod_lt _ (by decide)⟩ : Fin 400) (⟨(y 1).val, (y 1).isLt⟩ : Fin 128))

/-- Before point `n`: every strip a phase-0 point below `n` stored holds that point's rows. -/
def Filled (c : Dev nD) (n : Nat) (s : Vec F S10000x128 .f32) : Prop :=
  ∀ (t' : Fin cfg1.N) (h : t'.val < 25), t'.val < n → ∀ x : S400x128.Idx,
    s ((slab (grid1.coords t') ((fill_iff t').mpr h)).emb x) = rows V c t' x

/-- A strip's element in the scratch: 400 · strip + row, same column. -/
theorem slab_emb_val (t' : Fin cfg1.N) (h : k1_cond1 (grid1.coords t') = 1#1) (x : S400x128.Idx) (a : Fin 2) :
    ((slab (grid1.coords t') h).emb x a : Nat) = (![400 * (t'.val % 25), 0] : Fin 2 → Nat) a + (x a : Nat) := by
  have e : ((slab (grid1.coords t') h).emb x a : Nat) = k1_off1 (grid1.coords t') a + 1 * (x a : Nat) := rfl
  rw [e, off_eq t', Nat.one_mul]

theorem filled_zero (c : Dev nD) (s : Vec F S10000x128 .f32) : Filled V c 0 s :=
  fun _ _ h => absurd h (Nat.not_lt_zero _)

theorem filled_mono (c : Dev nD) {n n' : Nat} (s : Vec F S10000x128 .f32) (h25 : 25 ≤ n) (h : Filled V c n s) : Filled V c n' s :=
  fun t' h' _ x => h t' h' (by omega) x

/-- A phase-0 point's store keeps the earlier strips and adds its own. -/
theorem filled_step (c : Dev nD) (t : Fin cfg1.N) (ht : t.val < 25) (s : Vec F S10000x128 .f32) (h : Filled V c t.val s) :
    Filled V c (t.val + 1) ((slab (grid1.coords t) ((fill_iff t).mpr ht)).overlay s (rows V c t)) := by
  intro t' h' hlt x
  by_cases e : t' = t
  · subst e
    exact Rect.overlay_emb (slab (grid1.coords t') ((fill_iff t').mpr h')) s (rows V c t') x
  · have hne : t'.val ≠ t.val := fun hv => e (Fin.ext hv)
    rw [Rect.overlay_of_not_mem]
    · exact h t' h' (by omega) x
    · rw [Rect.mem_set_unit]
      intro hall
      have h0 := hall (0 : Fin 2)
      have e0 := slab_emb_val t' ((fill_iff t').mpr h') x (0 : Fin 2)
      rw [off_eq t] at h0
      have hx : (x (0 : Fin 2) : Nat) < 400 := (x (0 : Fin 2)).isLt
      simp only [Matrix.cons_val_zero] at h0 e0
      omega

/-- Once every strip is stored the scratch is `second`. -/
theorem filled_full (c : Dev nD) (n : Nat) (hn : 25 ≤ n) (s : Vec F S10000x128 .f32) (h : Filled V c n s) : s = second V c := by
  funext y
  have hr : (y 0).val < 10000 := (y 0).isLt
  have hq : ((y 0).val / 400) % 25 = (y 0).val / 400 := Nat.mod_eq_of_lt (by omega)
  have ht' : (stripPt (y 0).val).val < 25 := Nat.mod_lt _ (by decide)
  have hy : y = (slab (grid1.coords (stripPt (y 0).val)) ((fill_iff _).mpr ht')).emb
      (ix2 (⟨(y 0).val % 400, Nat.mod_lt _ (by decide)⟩ : Fin 400) (⟨(y 1).val, (y 1).isLt⟩ : Fin 128)) := by
    funext a; apply Fin.ext
    rw [slab_emb_val]
    match a with
    | ⟨0, _⟩ =>
      show (y 0).val = 400 * ((stripPt (y 0).val).val % 25) + (y 0).val % 400
      have : (stripPt (y 0).val).val = ((y 0).val / 400) % 25 := rfl
      rw [this]; omega
    | ⟨1, _⟩ =>
      show (y 1).val = 0 + (y 1).val
      omega
  calc s y = s ((slab (grid1.coords (stripPt (y 0).val)) ((fill_iff _).mpr ht')).emb
              (ix2 (⟨(y 0).val % 400, Nat.mod_lt _ (by decide)⟩ : Fin 400) (⟨(y 1).val, (y 1).isLt⟩ : Fin 128))) := congrArg s hy
    _ = rows V c (stripPt (y 0).val) _ := h _ ht' (by omega) _
    _ = second V c y := rfl

/-! ## The proof data -/

/-- The scoped buffers the region does not use (the first region's staging buffers), each whole at some contents. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f))

/-- The invariant before point `n`: the unused scoped buffers, the generator register, and the scratch with the strips
    stored so far. -/
def inv (c : Dev nD) (n : Nat) : sProp 𝕄 :=
  iprop(others (F := F) c ∗ (∃ r, prngReg c r)
    ∗ ∃ s, ⌜Filled V c n s⌝ ∗ owns (c : Thread nD τ) (Memref.whole cc1_scratch0) fullShare s)

/-- The arrays as the region finds them; each input's buffer at its block after the body; the output's buffer, where
    it is consulted (phase 1), at strip · `second`; the invariant `inv`; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => outBlk (blk V c 0 t) (second V c)
  Φ n := inv V c n.val
  q _ := fullShare
  owed _ := 0

theorem dat_A (c : Dev nD) (w : Fin cfg1.W) : (dat V c).A w = V c (Pipeline.arrRef spec1 w) := by
  dsimp only [dat]

theorem after_adj (c : Dev nD) (t : Fin cfg1.N) : (dat V c).after 0 t = blk V c 0 t := by dsimp only [dat]
theorem after_hid (c : Dev nD) (t : Fin cfg1.N) : (dat V c).after 1 t = blk V c 1 t := by dsimp only [dat]
theorem after_w2 (c : Dev nD) (t : Fin cfg1.N) : (dat V c).after 2 t = blk V c 2 t := by dsimp only [dat]
theorem after_b2 (c : Dev nD) (t : Fin cfg1.N) : (dat V c).after 3 t = blk V c 3 t := by dsimp only [dat]
theorem after_pa (c : Dev nD) (t : Fin cfg1.N) : (dat V c).after 4 t = blk V c 4 t := by dsimp only [dat]
theorem after_out (c : Dev nD) (t : Fin cfg1.N) : (dat V c).after 5 t = outBlk (blk V c 0 t) (second V c) := by dsimp only [dat]

theorem before_adj (c : Dev nD) (t : Fin cfg1.N) (d) : (dat V c).before 0 t d = blk V c 0 t :=
  found_adj V (dat V c) (dat_A V c 0) (after_adj V c) t d
theorem before_hid (c : Dev nD) (t : Fin cfg1.N) (d) : (dat V c).before 1 t d = blk V c 1 t :=
  found_hid V (dat V c) (dat_A V c 1) (after_hid V c) t d
theorem before_w2 (c : Dev nD) (t : Fin cfg1.N) (d) : (dat V c).before 2 t d = blk V c 2 t :=
  found_w2 V (dat V c) (dat_A V c 2) (after_w2 V c) t d
theorem before_b2 (c : Dev nD) (t : Fin cfg1.N) (d) : (dat V c).before 3 t d = blk V c 3 t :=
  found_b2 V (dat V c) (dat_A V c 3) (after_b2 V c) t d
theorem before_pa (c : Dev nD) (t : Fin cfg1.N) (d) : (dat V c).before 4 t d = blk V c 4 t :=
  found_pa V (dat V c) (dat_A V c 4) (after_pa V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ (dat V c).leavesExact 5 t)

set_option maxHeartbeats 1600000 in
/-- The body at any point. In phase 0 the scratch gains this point's strip and the output's buffer goes back as it
    came; in phase 1 the scratch is `second`, and the output's buffer ends at strip · `second`. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_adj, before_hid, before_w2, before_b2, before_pa]
  rw [show (dat V c).owesAt () t.succ = (dat V c).owesAt () t.castSucc from rfl,
    show (dat V c).Φ t.castSucc = inv V c t.val from rfl, show (dat V c).Φ t.succ = inv V c (t.val + 1) from rfl,
    after_adj, after_hid, after_w2, after_b2, after_pa]
  unfold inv
  by_cases hph : t.val < 25
  · have hcA : k1_cond1 (grid1.coords t) = 1#1 := (fill_iff t).mpr hph
    have hcB : ¬ k1_cond2 (grid1.coords t) = 1#1 := fun h => by have := (out_iff t).mp h; omega
    rw [(dat V c).leavesExact_idle 5 t (by rw [idle_out t]; exact decide_eq_true hph)
      (by rw [flush_out t]; exact decide_eq_false (by omega))]
    iintro ⟨⟨Hoth, Hp, ⟨%s, %hs, Hs⟩⟩, Ho, ⟨%d0, H0⟩, ⟨%d1, H1⟩, ⟨%d2, H2⟩, ⟨%d3, H3⟩, ⟨%d4, H4⟩, ⟨%d5, H5⟩⟩
    iapply (run_fill c (grid1.coords t) _ _ _ _ _ _ _ _ _ _ _ _ _ _ hcA hcB
      (blk V c 0 t) (blk V c 1 t) (blk V c 2 t) (blk V c 3 t) (blk V c 4 t) s Set.univ _)
    isplitl [H0]; · iexact H0
    isplitl [H1]; · iexact H1
    isplitl [H2]; · iexact H2
    isplitl [H3]; · iexact H3
    isplitl [H4]; · iexact H4
    isplitl [Hs]; · iexact Hs
    iintro ⟨H0, H1, H2, H3, H4, Hs⟩
    isplitl [Hoth Hp Hs]
    · isplitl [Hoth]; · iexact Hoth
      isplitl [Hp]; · iexact Hp
      iexists _; isplitr
      · ipureintro; exact filled_step V c t hph s hs
      iexact Hs
    isplitl [Ho]; · iexact Ho
    isplitl [H0]; · iexact H0
    isplitl [H1]; · iexact H1
    isplitl [H2]; · iexact H2
    isplitl [H3]; · iexact H3
    isplitl [H4]; · iexact H4
    iexists d5; iexact H5
  · have hcA : ¬ k1_cond1 (grid1.coords t) = 1#1 := fun h => hph ((fill_iff t).mp h)
    have hcB : k1_cond2 (grid1.coords t) = 1#1 := (out_iff t).mpr (by omega)
    rw [show (dat V c).leavesExact 5 t = owns (c : Thread nD τ) (st1_5 t) fullShare ((dat V c).after 5 t) from by
      unfold Dat.leavesExact; rw [idle_out t, decide_eq_false hph], after_out]
    iintro ⟨⟨Hoth, Hp, ⟨%s, %hs, Hs⟩⟩, Ho, ⟨%d0, H0⟩, ⟨%d1, H1⟩, ⟨%d2, H2⟩, ⟨%d3, H3⟩, ⟨%d4, H4⟩, ⟨%d5, H5⟩⟩
    obtain rfl := filled_full V c t.val (by omega) s hs
    iapply (run_out c (grid1.coords t) _ _ _ _ _ _ _ _ _ _ _ _ _ _ hcA hcB (blk V c 0 t) (second V c) Set.univ _)
    isplitl [H0]; · iexact H0
    isplitl [Hs]; · iexact Hs
    isplitl [H5]; · iexists _; iexact H5
    iintro ⟨H0, Hs, H5⟩
    isplitl [Hoth Hp Hs]
    · isplitl [Hoth]; · iexact Hoth
      isplitl [Hp]; · iexact Hp
      iexists _; isplitr
      · ipureintro; exact filled_mono V c (second V c) (by omega : 25 ≤ t.val) hs
      iexact Hs
    isplitl [Ho]; · iexact Ho
    isplitl [H0]; · iexact H0
    isplitl [H1]; · iexact H1
    isplitl [H2]; · iexact H2
    isplitl [H3]; · iexact H3
    isplitl [H4]; · iexact H4
    iexact H5

theorem body_obligation (c : Dev nD) : BodyObligation (dat (F := F) V c) (defs₀ (F := F)) Variants.none () Set.univ := fun t => by
  rw [bigSep_W1, bigSep_W1]
  exact sound_body V c t

end Cert.Kernel.Agg

end
-- ==== Proof.Bits.Frame.lean ====
/-
  The kernel's whole run. @main is: six host operations (a reshape of the features, the two weight
  transposes, the two bias reshapes, the slope's reshape), the first pallas_call, the second pallas_call, and a final
  reshape of the second call's result. The buffer contents at each boundary are a fold from the launch memory: after
  the host prefix; after the first region (its output array now holds the first hidden matrix); after the second
  region (its output array holds, block by block, what the phase-1 points wrote back); after the final reshape.
  Each region is given to the several-regions launch as a record around the state "every unscoped buffer whole at the
  boundary's contents, the generator register somewhere, nothing owed"; the second region's invariant also keeps
  its scratch. The launch's conclusion names every unscoped buffer's final contents, from which both the frame (each
  argument ends as launched) and the result's value are read.
-/
import proofs.«120533_g28707561406990_cont_9to1_1291_9_alg».proof.Proof.Bits.Dense
import proofs.«120533_g28707561406990_cont_9to1_1291_9_alg».proof.Proof.Bits.AggDat
import proofs.«120533_g28707561406990_cont_9to1_1291_9_alg».proof.Proof.Gen.Kernel.Regions

set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- At launch. -/
abbrev W0 : Dev nD → Valuation τ sig (Elt F) := fun c b => m (c, b)
/-- After the host prefix (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first region: its arrays at what its one write-back leaves, every other buffer as entered. -/
def W2 (c : Dev nD) : Valuation τ sig (Elt F) :=
  Pipeline.withArrays spec0 c (W1 m c) fun w => (Dense.dat (V1 m) c).arrAt w cfg0.N
theorem W2_arr (c : Dev nD) (w : Fin cfg0.W) :
    W2 m c (Proc.devRef .tc (Pipeline.arrRef spec0 w)) = (Dense.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Dense.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second region: its arrays at what its write-backs leave, every other buffer as entered. -/
def W3 (c : Dev nD) : Valuation τ sig (Elt F) :=
  Pipeline.withArrays spec1 c (W2 m c) fun w => (Agg.dat (V2 m) c).arrAt w cfg1.N
theorem W3_arr (c : Dev nD) (w : Fin cfg1.W) :
    W3 m c (Proc.devRef .tc (Pipeline.arrRef spec1 w)) = (Agg.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (Agg.dat (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the final reshape. -/
abbrev W4 : Dev nD → Valuation τ sig (Elt F) := fun c => StableHlo.after hostOps2 (W3 m c)

/-! ### No host operation and no region writes an argument -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide)
    _ = W2 m c (Proc.devRef .tc main_arg1) := (W3_arr m c 0).trans (((Agg.dat (V2 m) c).arrAt_in 0 rfl _).trans (Agg.dat_A (V2 m) c 0))
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps2 _ hostOps2_writes (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := StableHlo.after_of_writes_sub hostOps2 _ hostOps2_writes (by decide)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := StableHlo.after_of_writes_sub hostOps2 _ hostOps2_writes (by decide)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := StableHlo.after_of_writes_sub hostOps2 _ hostOps2_writes (by decide)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

/-! ## The proof data family and what rides beside the buffers -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => Dense.dat (V1 m) c
  | ⟨1, _⟩ => fun c => Agg.dat (V2 m) c
abbrev 𝒱₀ : Variants := Variants.none
abbrev L : GSem nD τ sig → Finset Unit := fun _ => ∅
abbrev lv : GSem nD τ sig → Unit → ℕ := fun _ _ => 0
/-- The generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the `owes`. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Dense.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Agg.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Agg.inv (V2 m) c 0 from rfl]
    change iprop((∃ r, prngReg c r) ∗ Pipeline.prefHeld _ c _ _ ∗ Pipeline.scopedRest spec1 c) ⊢ _
    rw [scopedRest1_eq]; unfold Agg.inv Agg.others
    iintro ⟨Hp, -, H0, H1, H2, H3, ⟨%f, Hs⟩⟩
    isplitl [H0 H1 H2 H3]
    · isplitl [H0]; · iexact H0
      isplitl [H1]; · iexact H1
      isplitl [H2]; · iexact H2
      iexact H3
    isplitl [Hp]; · iexact Hp
    iexists f; isplitr; · ipureintro; exact Agg.filled_zero (V2 m) c f
    iapply (Entails.of_eq (owns_whole (c : Thread nD τ) cc1_scratch0 fullShare f).symm)
    iexact Hs
  hout c := by
    rw [Pipeline.ownSems0_none, show (pdats m 1 c).Φ (Fin.last _) = Agg.inv (V2 m) c (Fin.last cfg1.N).val from rfl]
    change _ ⊢ iprop((∃ r, prngReg c r) ∗ BI.emp ∗ Pipeline.scopedRest spec1 c)
    rw [scopedRest1_eq]; unfold Agg.inv Agg.others
    iintro ⟨⟨H0, H1, H2, H3⟩, Hp, ⟨%s, -, Hs⟩⟩
    isplitl [Hp]; · iexact Hp
    isplitr; · iempintro
    isplitl [H0]; · iexact H0
    isplitl [H1]; · iexact H1
    isplitl [H2]; · iexact H2
    isplitl [H3]; · iexact H3
    iexists s
    iapply (Entails.of_eq (owns_whole (c : Thread nD τ) cc1_scratch0 fullShare s))
    iexact Hs
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- From any memory with zero counters every weakly fair execution of @main terminates, nothing faulting, and every
    final state holds each unscoped buffer at the fold's last contents. -/
theorem run_main (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      change iprop(StableHlo.held (c : Thread nD τ) (Pipeline.ucRefs τ sig) (W4 m c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: every argument ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run_main m ρ)

end Cert.Kernel.Whole

end
-- ==== Proof.Ideal.Dense.lean ====
/-
  The kernel's first pallas_call: one gridless region whose body loads the whole node-feature matrix
  (10000 × 128), the transposed first weight matrix (128 × 128) and the first bias as a row (1 × 128), and stores
  the matrix product plus the bias row broadcast down the rows, whole, into the region's one output.
  Stated at a parameter `V`, the contents of the core's buffers when the region is entered, and at any float
  instance: what the output's buffer holds after the body (the single whole store over the three loaded blocks),
  the body's triple, the region's proof data, and the body obligation at the region's only point.
-/
import proofs.«120533_g28707561406990_cont_9to1_1291_9_alg».proof.Proof.Gen.KernelIdeal.Launch
import proofs.«120533_g28707561406990_cont_9to1_1291_9_alg».proof.Proof.Gen.KernelIdeal.Skeleton
import proofs.«120533_g28707561406990_cont_9to1_1291_9_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Dense

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at the region's point, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block when the body runs: the features, -/
theorem found_x {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- the transposed weights, -/
theorem found_w {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- the bias row. -/
theorem found_b {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's accesses: every load and the one store are of a whole buffer -/

abbrev rX : Rect S10000x128 := Rect.unit (s := S10000x128) ![0, 0] S10000x128.size inb_S10000x128_S10000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-- The output's staging buffer after the body: the product-plus-bias payload of the three loaded blocks, stored whole. -/
def hidden (x : Vec F S10000x128 .f32) (w : Vec F S128x128 .f32) (b : Vec F S1x128 .f32) : Vec F S10000x128 .f32 :=
  View.canon [⟨rX, k0_pay1 (View.ld x rX) (View.ld w rW) (View.ld b rB)⟩]

/-- The one store covers the buffer. -/
theorem hidden_cover (p : Vec F S10000x128 .f32) (y : S10000x128.Idx) :
    ∃ pc ∈ ([⟨rX, p⟩] : List (View.Piece (Elt F) S10000x128 .f32)), y ∈ pc.1.set :=
  View.cover_of_tiled [⟨rX, p⟩] S10000x128.size (by rfl) y

/-! ## The body's triple -/

set_option maxHeartbeats 1000000 in
/-- The body on whole staging memrefs, the inputs' at contents `x`, `w`, `b` and the output's at anything, runs to the
    continuation holding the inputs' as they were and the output's at `hidden x w b`. -/
theorem run_body (c : Dev nD) (E : Set ℕ) (arg0 : Memref sig .tc .vmem S10000x128 .f32) (harg0 : arg0.IsWhole)
    (arg1 : Memref sig .tc .vmem S128x128 .f32) (harg1 : arg1.IsWhole) (arg2 : Memref sig .tc .vmem S1x128 .f32) (harg2 : arg2.IsWhole)
    (arg3 : Memref sig .tc .vmem S10000x128 .f32) (harg3 : arg3.IsWhole)
    (x : Vec F S10000x128 .f32) (w : Vec F S128x128 .f32) (b : Vec F S1x128 .f32) (K : PUnit → sProp 𝕄) :
    iprop(owns (c : Thread nD τ) arg0 fullShare x ∗ owns (c : Thread nD τ) arg1 fullShare w ∗ owns (c : Thread nD τ) arg2 fullShare b
        ∗ (∃ d, owns (c : Thread nD τ) arg3 fullShare d)
        ∗ (iprop(owns (c : Thread nD τ) arg0 fullShare x ∗ owns (c : Thread nD τ) arg1 fullShare w ∗ owns (c : Thread nD τ) arg2 fullShare b
            ∗ owns (c : Thread nD τ) arg3 fullShare (hidden x w b)) -∗ K ⟨⟩))
      ⊢ wp frame (wpE (defs₀ (F := F)) Variants.none c none) E (cc0__fc1_kernel arg0 harg0 arg1 harg1 arg2 harg2 arg3 harg3) K := by
  simp only [cc0__fc1_kernel_eq_skeleton]; unfold cc0__fc1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (hidden_cover _)

/-! ## The region's proof data -/

/-- The arrays as the region finds them; after the body each input's buffer at its block and the output's at
    `hidden` of the input blocks; the invariant the scoped buffers no window stages and the generator register,
    untouched; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => hidden (blk V c 0 t) (blk V c 1 t) (blk V c 2 t)
  Φ _ := Pipeline.ΦA spec0 c
  q _ := fullShare
  owed _ := 0

theorem dat_A (c : Dev nD) (w : Fin cfg0.W) : (dat V c).A w = V c (Pipeline.arrRef spec0 w) := by
  dsimp only [dat]

theorem after_x (c : Dev nD) (t : Fin cfg0.N) : (dat V c).after 0 t = blk V c 0 t := by dsimp only [dat]
theorem after_w (c : Dev nD) (t : Fin cfg0.N) : (dat V c).after 1 t = blk V c 1 t := by dsimp only [dat]
theorem after_b (c : Dev nD) (t : Fin cfg0.N) : (dat V c).after 2 t = blk V c 2 t := by dsimp only [dat]
theorem after_h (c : Dev nD) (t : Fin cfg0.N) :
    (dat V c).after 3 t = hidden (blk V c 0 t) (blk V c 1 t) (blk V c 2 t) := by dsimp only [dat]

theorem before_x (c : Dev nD) (t : Fin cfg0.N) (d) : (dat V c).before 0 t d = blk V c 0 t :=
  found_x V (dat V c) (dat_A V c 0) (after_x V c) t d
theorem before_w (c : Dev nD) (t : Fin cfg0.N) (d) : (dat V c).before 1 t d = blk V c 1 t :=
  found_w V (dat V c) (dat_A V c 1) (after_w V c) t d
theorem before_b (c : Dev nD) (t : Fin cfg0.N) (d) : (dat V c).before 2 t d = blk V c 2 t :=
  found_b V (dat V c) (dat_A V c 2) (after_b V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at the point: the inputs' memrefs hold their blocks, so `run_body` applies; the invariant and the core's
    `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_w, before_b]
  rw [show (dat V c).Φ t.succ = (dat V c).Φ t.castSucc from rfl,
    show (dat V c).owesAt () t.succ = (dat V c).owesAt () t.castSucc from rfl,
    after_x, after_w, after_b, after_h]
  iintro ⟨HΦ, Ho, ⟨%d0, H0⟩, ⟨%d1, H1⟩, ⟨%d2, H2⟩, ⟨%d3, H3⟩⟩
  iapply (run_body c Set.univ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dat (F := F) V c) (defs₀ (F := F)) Variants.none () Set.univ := fun t => by
  rw [bigSep_W0, bigSep_W0]
  exact sound_body V c t

end Cert.KernelIdeal.Dense

end
-- ==== Proof.Ideal.AggRuns.lean ====
/-
  The second pallas_call's body, run once in each of its two phases (the grid is 2 × 25: phase g, strip m).
  Phase 0 at strip m: load the adjacency strip (400 rows, all 10000 columns), the whole first hidden matrix, the
  second weights, the second bias row and the activation slope; form (strip · hidden), apply x ↦ max(x,0) + a·min(x,0),
  multiply by the second weights, add the bias row, and store the 400 × 128 result into rows [400m, 400m+400) of the
  10000 × 128 scratch, the other rows of the scratch staying as they were. The output's staging buffer is not touched.
  Phase 1 at strip m: load the adjacency strip and the WHOLE scratch, and store (strip · scratch) whole into the
  output's staging buffer; the scratch stays as it was.
-/
import proofs.«120533_g28707561406990_cont_9to1_1291_9_alg».proof.Proof.Gen.KernelIdeal.Launch
import proofs.«120533_g28707561406990_cont_9to1_1291_9_alg».proof.Proof.Gen.KernelIdeal.Skeleton
import proofs.«120533_g28707561406990_cont_9to1_1291_9_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Agg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

abbrev rA : Rect S1x400x10000 := Rect.unit (s := S1x400x10000) ![0, 0, 0] S1x400x10000.size inb_S1x400x10000_S1x400x10000_0_0_0
abbrev rH : Rect S10000x128 := Rect.unit (s := S10000x128) ![0, 0] S10000x128.size inb_S10000x128_S10000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rP : Rect S1x1 := Rect.unit (s := S1x1) ![0, 0] S1x1.size inb_S1x1_S1x1_0_0
abbrev rO : Rect S400x128 := Rect.unit (s := S400x128) ![0, 0] S400x128.size inb_S400x128_S400x128_0_0
/-- Rows [400m, 400m+400) of the scratch, at a phase-0 point. -/
abbrev slab (i : grid1.Coords) (h : k1_cond1 i = 1#1) : Rect S10000x128 :=
  Rect.unit (s := S10000x128) (k1_off1 i) S400x128.size (k1_off1_inb i h)

/-- What phase 0 stores: the second layer's rows for this strip, from the loaded blocks. -/
def slabPay (a : Vec F S1x400x10000 .f32) (h : Vec F S10000x128 .f32) (w : Vec F S128x128 .f32) (b : Vec F S1x128 .f32)
    (p : Vec F S1x1 .f32) : Vec F S400x128 .f32 :=
  k1_pay2 (View.ld a rA) (View.ld h rH) (View.ld p rP) (View.ld w rW) (View.ld b rB)

/-- What phase 1 leaves in the output's staging buffer: the strip times the scratch, stored whole. -/
def outBlk (a : Vec F S1x400x10000 .f32) (s : Vec F S10000x128 .f32) : Vec F S400x128 .f32 :=
  View.canon [⟨rO, k1_pay3 (View.ld a rA) (View.ld s rH)⟩]

theorem outBlk_cover (p : Vec F S400x128 .f32) (y : S400x128.Idx) :
    ∃ pc ∈ ([⟨rO, p⟩] : List (View.Piece (Elt F) S400x128 .f32)), y ∈ pc.1.set :=
  View.cover_of_tiled [⟨rO, p⟩] S400x128.size (by rfl) y

/-- One store through a rectangle reads back as the payload on the rectangle and the old contents off it. -/
theorem read_store_one {sig : RefSig} {κ : Kind} {sp : Space} {S : Shape} {e : EltTy} {Val : EltTy → Type}
    (v : View sig κ sp S e) (f : v.ty.Contents Val) (r : Rect S) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [View.read_writes_cons_emb, Rect.overlay_emb]
  · rw [Rect.overlay_of_not_mem _ _ _ hy]
    exact View.read_writes_apply_of_forall_not_mem v f y _ (fun p hp => by
      rw [List.mem_singleton] at hp; subst hp; exact hy)

/-! ## Phase 0 -/

set_option maxHeartbeats 2000000 in
theorem run_fill (c : Dev nD) (i : grid1.Coords)
    (arg2 : Memref sig .tc .vmem S1x400x10000 .f32) (harg2 : arg2.IsWhole) (arg3 : Memref sig .tc .vmem S10000x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S1x1 .f32) (harg6 : arg6.IsWhole) (arg7 : Memref sig .tc .vmem S400x128 .f32) (harg7 : arg7.IsWhole)
    (arg8 : Memref sig .tc .vmem S10000x128 .f32) (harg8 : arg8.IsWhole)
    (hcA : k1_cond1 i = 1#1) (hcB : ¬ k1_cond2 i = 1#1)
    (a : Vec F S1x400x10000 .f32) (h : Vec F S10000x128 .f32) (w : Vec F S128x128 .f32) (b : Vec F S1x128 .f32) (p : Vec F S1x1 .f32)
    (s : Vec F S10000x128 .f32) :
    ∀ (E : Set ℕ) (K : PUnit → sProp 𝕄),
      iprop(owns (c : Thread nD τ) arg2 fullShare a ∗ owns (c : Thread nD τ) arg3 fullShare h ∗ owns (c : Thread nD τ) arg4 fullShare w
          ∗ owns (c : Thread nD τ) arg5 fullShare b ∗ owns (c : Thread nD τ) arg6 fullShare p ∗ owns (c : Thread nD τ) arg8 fullShare s
          ∗ (iprop(owns (c : Thread nD τ) arg2 fullShare a ∗ owns (c : Thread nD τ) arg3 fullShare h ∗ owns (c : Thread nD τ) arg4 fullShare w
              ∗ owns (c : Thread nD τ) arg5 fullShare b ∗ owns (c : Thread nD τ) arg6 fullShare p
              ∗ owns (c : Thread nD τ) arg8 fullShare ((slab i hcA).overlay s (slabPay a h w b p))) -∗ K ⟨⟩))
        ⊢ wp frame (wpE (defs₀ (F := F)) Variants.none c none) E
            (cc1__agg_kernel i arg2 harg2 arg3 harg3 arg4 harg4 arg5 harg5 arg6 harg6 arg7 harg7 arg8 harg8) K := by
  intro E K
  simp only [cc1__agg_kernel_eq_skeleton]; unfold cc1__agg_kernel_skel
  unfold owns
  iintro ⟨⟨%f2, %hf2, H2⟩, ⟨%f3, %hf3, H3⟩, ⟨%f4, %hf4, H4⟩, ⟨%f5, %hf5, H5⟩, ⟨%f6, %hf6, H6⟩, ⟨%f8, %hf8, H8⟩, Hk⟩
  subst hf2 hf3 hf4 hf5 hf6 hf8
  sl_exec (disch := first | exact hcA | exact hcB)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H8
  ipureintro
  exact read_store_one _ _ _ _

/-! ## Phase 1 -/

set_option maxHeartbeats 2000000 in
theorem run_out (c : Dev nD) (i : grid1.Coords)
    (arg2 : Memref sig .tc .vmem S1x400x10000 .f32) (harg2 : arg2.IsWhole) (arg3 : Memref sig .tc .vmem S10000x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S1x1 .f32) (harg6 : arg6.IsWhole) (arg7 : Memref sig .tc .vmem S400x128 .f32) (harg7 : arg7.IsWhole)
    (arg8 : Memref sig .tc .vmem S10000x128 .f32) (harg8 : arg8.IsWhole)
    (hcA : ¬ k1_cond1 i = 1#1) (hcB : k1_cond2 i = 1#1)
    (a : Vec F S1x400x10000 .f32) (s : Vec F S10000x128 .f32) :
    ∀ (E : Set ℕ) (K : PUnit → sProp 𝕄),
      iprop(owns (c : Thread nD τ) arg2 fullShare a ∗ owns (c : Thread nD τ) arg8 fullShare s ∗ (∃ d, owns (c : Thread nD τ) arg7 fullShare d)
          ∗ (iprop(owns (c : Thread nD τ) arg2 fullShare a ∗ owns (c : Thread nD τ) arg8 fullShare s
              ∗ owns (c : Thread nD τ) arg7 fullShare (outBlk a s)) -∗ K ⟨⟩))
        ⊢ wp frame (wpE (defs₀ (F := F)) Variants.none c none) E
            (cc1__agg_kernel i arg2 harg2 arg3 harg3 arg4 harg4 arg5 harg5 arg6 harg6 arg7 harg7 arg8 harg8) K := by
  intro E K
  simp only [cc1__agg_kernel_eq_skeleton]; unfold cc1__agg_kernel_skel
  unfold owns
  iintro ⟨⟨%f2, %hf2, H2⟩, ⟨%f8, %hf8, H8⟩, ⟨%d7, %f7, -, H7⟩, Hk⟩
  subst hf2 hf8
  sl_exec (disch := first | exact hcA | exact hcB)
  sl_step
  iapply Hk
  isplitl [H2]
  · iexists f2; isplitr; · ipureintro; rfl
    iexact H2
  isplitl [H8]
  · iexists f8; isplitr; · ipureintro; rfl
    iexact H8
  iexists _; isplitr
  swap; · iexact H7
  ipureintro
  exact View.read_writes_eq_canon _ _ _ (outBlk_cover _)

end Cert.KernelIdeal.Agg

end
-- ==== Proof.Ideal.AggDat.lean ====
/-
  The second pallas_call's proof data, at a parameter `V` (the core's buffers when the region is entered) and any float
  instance. The grid is 2 × 25, walked row-major: points 0..24 are phase 0 (strip m = t), points 25..49 phase 1
  (strip m = t − 25). The scratch (10000 × 128) is no window: it lives in the region's invariant. Before point n the
  invariant says the scratch holds, on rows [400·t', 400·t'+400) for every phase-0 point t' < n, the rows that point
  computed (`rows t'`); the other rows are whatever they were. After the 25 phase-0 points every row is covered, so
  the scratch is one function of the entry contents (`second`), and each phase-1 point stores strip · `second` into
  the output's staging buffer. The output window is idle in phase 0 (its block index is parked at 0 and it is not
  written back there), and is written back at every phase-1 point.
-/
import proofs.«120533_g28707561406990_cont_9to1_1291_9_alg».proof.Proof.Ideal.AggRuns
import Idealize.ShloMosaic.Lib.ValueIdx

set_option maxRecDepth 16384

noncomputable section

namespace Cert.KernelIdeal.Agg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-! ## The windows' blocks -/

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block when the body runs, fetched at that point or not: the adjacency strip, -/
theorem found_adj {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- the first hidden matrix, -/
theorem found_hid {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- the transposed second weights, -/
theorem found_w2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- the second bias row, -/
theorem found_b2 {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- the activation slope. -/
theorem found_pa {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-! ## The grid in closed form -/

/-- Phase 0 is the first 25 points, -/
theorem fill_iff : ∀ t : Fin cfg1.N, k1_cond1 (grid1.coords t) = 1#1 ↔ t.val < 25 :=
  (by decide +kernel : ∀ t : Fin grid1.N, k1_cond1 (grid1.coords t) = 1#1 ↔ t.val < 25)
/-- phase 1 the last 25; -/
theorem out_iff : ∀ t : Fin cfg1.N, k1_cond2 (grid1.coords t) = 1#1 ↔ 25 ≤ t.val :=
  (by decide +kernel : ∀ t : Fin grid1.N, k1_cond2 (grid1.coords t) = 1#1 ↔ 25 ≤ t.val)
/-- the scratch rows a point addresses start at 400 times its strip; -/
theorem off_eq : ∀ t : Fin cfg1.N, k1_off1 (grid1.coords t) = ![400 * (t.val % 25), 0] :=
  (by decide +kernel : ∀ t : Fin grid1.N, k1_off1 (grid1.coords t) = ![400 * (t.val % 25), 0])
/-- the output window is idle exactly in phase 0 -/
theorem idle_out : ∀ t : Fin cfg1.N, cfg1.idle 5 (cfg1.grid.coords t) = decide (t.val < 25) :=
  (by decide +kernel : ∀ t : Fin grid1.N, idle1 5 (grid1.coords t) = decide (t.val < 25))
/-- and written back exactly in phase 1. -/
theorem flush_out : ∀ t : Fin cfg1.N, (cfg1.win 5).flush t = decide (25 ≤ t.val) :=
  (by decide +kernel : ∀ t : Fin grid1.N, win1_5.flush t = decide (25 ≤ t.val))

/-! ## The scratch -/

/-- The rows phase-0 point `t` stores into the scratch. -/
def rows (c : Dev nD) (t : Fin cfg1.N) : Vec F S400x128 .f32 :=
  slabPay (blk V c 0 t) (blk V c 1 t) (blk V c 2 t) (blk V c 3 t) (blk V c 4 t)

/-- The phase-0 point that fills the strip holding row `r`. -/
def stripPt (r : Nat) : Fin cfg1.N :=
  ⟨(r / 400) % 25, lt_of_lt_of_eq (Nat.lt_trans (Nat.mod_lt _ (by decide)) (by decide : 25 < 50)) N_1.symm⟩

/-- The scratch after phase 0, as one function of the entry contents: row `r` is row `r mod 400` of what the point of
    strip `r / 400` stored. -/
def second (c : Dev nD) : Vec F S10000x128 .f32 := fun y =>
  rows V c (stripPt (y 0).val) (ix2 (⟨(y 0).val % 400, Nat.mod_lt _ (by decide)⟩ : Fin 400) (⟨(y 1).val, (y 1).isLt⟩ : Fin 128))

/-- Before point `n`: every strip a phase-0 point below `n` stored holds that point's rows. -/
def Filled (c : Dev nD) (n : Nat) (s : Vec F S10000x128 .f32) : Prop :=
  ∀ (t' : Fin cfg1.N) (h : t'.val < 25), t'.val < n → ∀ x : S400x128.Idx,
    s ((slab (grid1.coords t') ((fill_iff t').mpr h)).emb x) = rows V c t' x

/-- A strip's element in the scratch: 400 · strip + row, same column. -/
theorem slab_emb_val (t' : Fin cfg1.N) (h : k1_cond1 (grid1.coords t') = 1#1) (x : S400x128.Idx) (a : Fin 2) :
    ((slab (grid1.coords t') h).emb x a : Nat) = (![400 * (t'.val % 25), 0] : Fin 2 → Nat) a + (x a : Nat) := by
  have e : ((slab (grid1.coords t') h).emb x a : Nat) = k1_off1 (grid1.coords t') a + 1 * (x a : Nat) := rfl
  rw [e, off_eq t', Nat.one_mul]

theorem filled_zero (c : Dev nD) (s : Vec F S10000x128 .f32) : Filled V c 0 s :=
  fun _ _ h => absurd h (Nat.not_lt_zero _)

theorem filled_mono (c : Dev nD) {n n' : Nat} (s : Vec F S10000x128 .f32) (h25 : 25 ≤ n) (h : Filled V c n s) : Filled V c n' s :=
  fun t' h' _ x => h t' h' (by omega) x

/-- A phase-0 point's store keeps the earlier strips and adds its own. -/
theorem filled_step (c : Dev nD) (t : Fin cfg1.N) (ht : t.val < 25) (s : Vec F S10000x128 .f32) (h : Filled V c t.val s) :
    Filled V c (t.val + 1) ((slab (grid1.coords t) ((fill_iff t).mpr ht)).overlay s (rows V c t)) := by
  intro t' h' hlt x
  by_cases e : t' = t
  · subst e
    exact Rect.overlay_emb (slab (grid1.coords t') ((fill_iff t').mpr h')) s (rows V c t') x
  · have hne : t'.val ≠ t.val := fun hv => e (Fin.ext hv)
    rw [Rect.overlay_of_not_mem]
    · exact h t' h' (by omega) x
    · rw [Rect.mem_set_unit]
      intro hall
      have h0 := hall (0 : Fin 2)
      have e0 := slab_emb_val t' ((fill_iff t').mpr h') x (0 : Fin 2)
      rw [off_eq t] at h0
      have hx : (x (0 : Fin 2) : Nat) < 400 := (x (0 : Fin 2)).isLt
      simp only [Matrix.cons_val_zero] at h0 e0
      omega

/-- Once every strip is stored the scratch is `second`. -/
theorem filled_full (c : Dev nD) (n : Nat) (hn : 25 ≤ n) (s : Vec F S10000x128 .f32) (h : Filled V c n s) : s = second V c := by
  funext y
  have hr : (y 0).val < 10000 := (y 0).isLt
  have hq : ((y 0).val / 400) % 25 = (y 0).val / 400 := Nat.mod_eq_of_lt (by omega)
  have ht' : (stripPt (y 0).val).val < 25 := Nat.mod_lt _ (by decide)
  have hy : y = (slab (grid1.coords (stripPt (y 0).val)) ((fill_iff _).mpr ht')).emb
      (ix2 (⟨(y 0).val % 400, Nat.mod_lt _ (by decide)⟩ : Fin 400) (⟨(y 1).val, (y 1).isLt⟩ : Fin 128)) := by
    funext a; apply Fin.ext
    rw [slab_emb_val]
    match a with
    | ⟨0, _⟩ =>
      show (y 0).val = 400 * ((stripPt (y 0).val).val % 25) + (y 0).val % 400
      have : (stripPt (y 0).val).val = ((y 0).val / 400) % 25 := rfl
      rw [this]; omega
    | ⟨1, _⟩ =>
      show (y 1).val = 0 + (y 1).val
      omega
  calc s y = s ((slab (grid1.coords (stripPt (y 0).val)) ((fill_iff _).mpr ht')).emb
              (ix2 (⟨(y 0).val % 400, Nat.mod_lt _ (by decide)⟩ : Fin 400) (⟨(y 1).val, (y 1).isLt⟩ : Fin 128))) := congrArg s hy
    _ = rows V c (stripPt (y 0).val) _ := h _ ht' (by omega) _
    _ = second V c y := rfl

/-! ## The proof data -/

/-- The scoped buffers the region does not use (the first region's staging buffers), each whole at some contents. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f))

/-- The invariant before point `n`: the unused scoped buffers, the generator register, and the scratch with the strips
    stored so far. -/
def inv (c : Dev nD) (n : Nat) : sProp 𝕄 :=
  iprop(others (F := F) c ∗ (∃ r, prngReg c r)
    ∗ ∃ s, ⌜Filled V c n s⌝ ∗ owns (c : Thread nD τ) (Memref.whole cc1_scratch0) fullShare s)

/-- The arrays as the region finds them; each input's buffer at its block after the body; the output's buffer, where
    it is consulted (phase 1), at strip · `second`; the invariant `inv`; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => outBlk (blk V c 0 t) (second V c)
  Φ n := inv V c n.val
  q _ := fullShare
  owed _ := 0

theorem dat_A (c : Dev nD) (w : Fin cfg1.W) : (dat V c).A w = V c (Pipeline.arrRef spec1 w) := by
  dsimp only [dat]

theorem after_adj (c : Dev nD) (t : Fin cfg1.N) : (dat V c).after 0 t = blk V c 0 t := by dsimp only [dat]
theorem after_hid (c : Dev nD) (t : Fin cfg1.N) : (dat V c).after 1 t = blk V c 1 t := by dsimp only [dat]
theorem after_w2 (c : Dev nD) (t : Fin cfg1.N) : (dat V c).after 2 t = blk V c 2 t := by dsimp only [dat]
theorem after_b2 (c : Dev nD) (t : Fin cfg1.N) : (dat V c).after 3 t = blk V c 3 t := by dsimp only [dat]
theorem after_pa (c : Dev nD) (t : Fin cfg1.N) : (dat V c).after 4 t = blk V c 4 t := by dsimp only [dat]
theorem after_out (c : Dev nD) (t : Fin cfg1.N) : (dat V c).after 5 t = outBlk (blk V c 0 t) (second V c) := by dsimp only [dat]

theorem before_adj (c : Dev nD) (t : Fin cfg1.N) (d) : (dat V c).before 0 t d = blk V c 0 t :=
  found_adj V (dat V c) (dat_A V c 0) (after_adj V c) t d
theorem before_hid (c : Dev nD) (t : Fin cfg1.N) (d) : (dat V c).before 1 t d = blk V c 1 t :=
  found_hid V (dat V c) (dat_A V c 1) (after_hid V c) t d
theorem before_w2 (c : Dev nD) (t : Fin cfg1.N) (d) : (dat V c).before 2 t d = blk V c 2 t :=
  found_w2 V (dat V c) (dat_A V c 2) (after_w2 V c) t d
theorem before_b2 (c : Dev nD) (t : Fin cfg1.N) (d) : (dat V c).before 3 t d = blk V c 3 t :=
  found_b2 V (dat V c) (dat_A V c 3) (after_b2 V c) t d
theorem before_pa (c : Dev nD) (t : Fin cfg1.N) (d) : (dat V c).before 4 t d = blk V c 4 t :=
  found_pa V (dat V c) (dat_A V c 4) (after_pa V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ (dat V c).leavesExact 5 t)

set_option maxHeartbeats 1600000 in
/-- The body at any point. In phase 0 the scratch gains this point's strip and the output's buffer goes back as it
    came; in phase 1 the scratch is `second`, and the output's buffer ends at strip · `second`. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_adj, before_hid, before_w2, before_b2, before_pa]
  rw [show (dat V c).owesAt () t.succ = (dat V c).owesAt () t.castSucc from rfl,
    show (dat V c).Φ t.castSucc = inv V c t.val from rfl, show (dat V c).Φ t.succ = inv V c (t.val + 1) from rfl,
    after_adj, after_hid, after_w2, after_b2, after_pa]
  unfold inv
  by_cases hph : t.val < 25
  · have hcA : k1_cond1 (grid1.coords t) = 1#1 := (fill_iff t).mpr hph
    have hcB : ¬ k1_cond2 (grid1.coords t) = 1#1 := fun h => by have := (out_iff t).mp h; omega
    rw [(dat V c).leavesExact_idle 5 t (by rw [idle_out t]; exact decide_eq_true hph)
      (by rw [flush_out t]; exact decide_eq_false (by omega))]
    iintro ⟨⟨Hoth, Hp, ⟨%s, %hs, Hs⟩⟩, Ho, ⟨%d0, H0⟩, ⟨%d1, H1⟩, ⟨%d2, H2⟩, ⟨%d3, H3⟩, ⟨%d4, H4⟩, ⟨%d5, H5⟩⟩
    iapply (run_fill c (grid1.coords t) _ _ _ _ _ _ _ _ _ _ _ _ _ _ hcA hcB
      (blk V c 0 t) (blk V c 1 t) (blk V c 2 t) (blk V c 3 t) (blk V c 4 t) s Set.univ _)
    isplitl [H0]; · iexact H0
    isplitl [H1]; · iexact H1
    isplitl [H2]; · iexact H2
    isplitl [H3]; · iexact H3
    isplitl [H4]; · iexact H4
    isplitl [Hs]; · iexact Hs
    iintro ⟨H0, H1, H2, H3, H4, Hs⟩
    isplitl [Hoth Hp Hs]
    · isplitl [Hoth]; · iexact Hoth
      isplitl [Hp]; · iexact Hp
      iexists _; isplitr
      · ipureintro; exact filled_step V c t hph s hs
      iexact Hs
    isplitl [Ho]; · iexact Ho
    isplitl [H0]; · iexact H0
    isplitl [H1]; · iexact H1
    isplitl [H2]; · iexact H2
    isplitl [H3]; · iexact H3
    isplitl [H4]; · iexact H4
    iexists d5; iexact H5
  · have hcA : ¬ k1_cond1 (grid1.coords t) = 1#1 := fun h => hph ((fill_iff t).mp h)
    have hcB : k1_cond2 (grid1.coords t) = 1#1 := (out_iff t).mpr (by omega)
    rw [show (dat V c).leavesExact 5 t = owns (c : Thread nD τ) (st1_5 t) fullShare ((dat V c).after 5 t) from by
      unfold Dat.leavesExact; rw [idle_out t, decide_eq_false hph], after_out]
    iintro ⟨⟨Hoth, Hp, ⟨%s, %hs, Hs⟩⟩, Ho, ⟨%d0, H0⟩, ⟨%d1, H1⟩, ⟨%d2, H2⟩, ⟨%d3, H3⟩, ⟨%d4, H4⟩, ⟨%d5, H5⟩⟩
    obtain rfl := filled_full V c t.val (by omega) s hs
    iapply (run_out c (grid1.coords t) _ _ _ _ _ _ _ _ _ _ _ _ _ _ hcA hcB (blk V c 0 t) (second V c) Set.univ _)
    isplitl [H0]; · iexact H0
    isplitl [Hs]; · iexact Hs
    isplitl [H5]; · iexists _; iexact H5
    iintro ⟨H0, Hs, H5⟩
    isplitl [Hoth Hp Hs]
    · isplitl [Hoth]; · iexact Hoth
      isplitl [Hp]; · iexact Hp
      iexists _; isplitr
      · ipureintro; exact filled_mono V c (second V c) (by omega : 25 ≤ t.val) hs
      iexact Hs
    isplitl [Ho]; · iexact Ho
    isplitl [H0]; · iexact H0
    isplitl [H1]; · iexact H1
    isplitl [H2]; · iexact H2
    isplitl [H3]; · iexact H3
    isplitl [H4]; · iexact H4
    iexact H5

theorem body_obligation (c : Dev nD) : BodyObligation (dat (F := F) V c) (defs₀ (F := F)) Variants.none () Set.univ := fun t => by
  rw [bigSep_W1, bigSep_W1]
  exact sound_body V c t

end Cert.KernelIdeal.Agg

end
-- ==== Proof.Ideal.Frame.lean ====
/-
  The kernel's whole run. @main is: six host operations (a reshape of the features, the two weight
  transposes, the two bias reshapes, the slope's reshape), the first pallas_call, the second pallas_call, and a final
  reshape of the second call's result. The buffer contents at each boundary are a fold from the launch memory: after
  the host prefix; after the first region (its output array now holds the first hidden matrix); after the second
  region (its output array holds, block by block, what the phase-1 points wrote back); after the final reshape.
  Each region is given to the several-regions launch as a record around the state "every unscoped buffer whole at the
  boundary's contents, the generator register somewhere, nothing owed"; the second region's invariant also keeps
  its scratch. The launch's conclusion names every unscoped buffer's final contents, from which both the frame (each
  argument ends as launched) and the result's value are read.
-/
import proofs.«120533_g28707561406990_cont_9to1_1291_9_alg».proof.Proof.Ideal.Dense
import proofs.«120533_g28707561406990_cont_9to1_1291_9_alg».proof.Proof.Ideal.AggDat
import proofs.«120533_g28707561406990_cont_9to1_1291_9_alg».proof.Proof.Gen.KernelIdeal.Regions

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- At launch. -/
abbrev W0 : Dev nD → Valuation τ sig (Elt F) := fun c b => m (c, b)
/-- After the host prefix (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first region: its arrays at what its one write-back leaves, every other buffer as entered. -/
def W2 (c : Dev nD) : Valuation τ sig (Elt F) :=
  Pipeline.withArrays spec0 c (W1 m c) fun w => (Dense.dat (V1 m) c).arrAt w cfg0.N
theorem W2_arr (c : Dev nD) (w : Fin cfg0.W) :
    W2 m c (Proc.devRef .tc (Pipeline.arrRef spec0 w)) = (Dense.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Dense.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second region: its arrays at what its write-backs leave, every other buffer as entered. -/
def W3 (c : Dev nD) : Valuation τ sig (Elt F) :=
  Pipeline.withArrays spec1 c (W2 m c) fun w => (Agg.dat (V2 m) c).arrAt w cfg1.N
theorem W3_arr (c : Dev nD) (w : Fin cfg1.W) :
    W3 m c (Proc.devRef .tc (Pipeline.arrRef spec1 w)) = (Agg.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (Agg.dat (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the final reshape. -/
abbrev W4 : Dev nD → Valuation τ sig (Elt F) := fun c => StableHlo.after hostOps2 (W3 m c)

/-! ### No host operation and no region writes an argument -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide)
    _ = W2 m c (Proc.devRef .tc main_arg1) := (W3_arr m c 0).trans (((Agg.dat (V2 m) c).arrAt_in 0 rfl _).trans (Agg.dat_A (V2 m) c 0))
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps2 _ hostOps2_writes (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := StableHlo.after_of_writes_sub hostOps2 _ hostOps2_writes (by decide)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := StableHlo.after_of_writes_sub hostOps2 _ hostOps2_writes (by decide)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := StableHlo.after_of_writes_sub hostOps2 _ hostOps2_writes (by decide)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

/-! ## The proof data family and what rides beside the buffers -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => Dense.dat (V1 m) c
  | ⟨1, _⟩ => fun c => Agg.dat (V2 m) c
abbrev 𝒱₀ : Variants := Variants.none
abbrev L : GSem nD τ sig → Finset Unit := fun _ => ∅
abbrev lv : GSem nD τ sig → Unit → ℕ := fun _ _ => 0
/-- The generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the `owes`. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Dense.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Agg.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Agg.inv (V2 m) c 0 from rfl]
    change iprop((∃ r, prngReg c r) ∗ Pipeline.prefHeld _ c _ _ ∗ Pipeline.scopedRest spec1 c) ⊢ _
    rw [scopedRest1_eq]; unfold Agg.inv Agg.others
    iintro ⟨Hp, -, H0, H1, H2, H3, ⟨%f, Hs⟩⟩
    isplitl [H0 H1 H2 H3]
    · isplitl [H0]; · iexact H0
      isplitl [H1]; · iexact H1
      isplitl [H2]; · iexact H2
      iexact H3
    isplitl [Hp]; · iexact Hp
    iexists f; isplitr; · ipureintro; exact Agg.filled_zero (V2 m) c f
    iapply (Entails.of_eq (owns_whole (c : Thread nD τ) cc1_scratch0 fullShare f).symm)
    iexact Hs
  hout c := by
    rw [Pipeline.ownSems0_none, show (pdats m 1 c).Φ (Fin.last _) = Agg.inv (V2 m) c (Fin.last cfg1.N).val from rfl]
    change _ ⊢ iprop((∃ r, prngReg c r) ∗ BI.emp ∗ Pipeline.scopedRest spec1 c)
    rw [scopedRest1_eq]; unfold Agg.inv Agg.others
    iintro ⟨⟨H0, H1, H2, H3⟩, Hp, ⟨%s, -, Hs⟩⟩
    isplitl [Hp]; · iexact Hp
    isplitr; · iempintro
    isplitl [H0]; · iexact H0
    isplitl [H1]; · iexact H1
    isplitl [H2]; · iexact H2
    isplitl [H3]; · iexact H3
    iexists s
    iapply (Entails.of_eq (owns_whole (c : Thread nD τ) cc1_scratch0 fullShare s))
    iexact Hs
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- From any memory with zero counters every weakly fair execution of @main terminates, nothing faulting, and every
    final state holds each unscoped buffer at the fold's last contents. -/
theorem run_main (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      change iprop(StableHlo.held (c : Thread nD τ) (Pipeline.ucRefs τ sig) (W4 m c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: every argument ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run_main m ρ)

end Cert.KernelIdeal.Whole

end
-- ==== Proof.Layers.lean ====
/-
  What both programs compute, as functions of the seven argument arrays at the ideal instance (a float is an
  extended real, every operation exact). With x : [1, 10000, 128] the node features, adj : [1, 10000, 10000] the dense
  adjacency, W1, W2 : [128, 128] the two weight matrices, b1, b2 : [128] the biases and a : [] the activation's slope:

      hid1 n d = (∑ f, x[0,n,f] · W1[d,f]) + b1[d]                      first linear layer
      agg1 n d = ∑ k, adj[0,n,k] · hid1 k d                              first propagation
      act  n d = max(agg1 n d, 0) + a · min(agg1 n d, 0)                 the activation
      hid2 n d = (∑ f, act n f · W2[d,f]) + b2[d]                        second linear layer
      out  n d = ∑ k, adj[0,n,k] · hid2 k d                              second propagation

  The contractions are the extended reals' finite sums of products; the pointwise sum, product, maximum and minimum
  are the ideal instance's own operations, applied to the same operands in the same order by both programs, so no
  algebraic law and no finiteness is needed to compare them.
-/
import Idealize.ShloMosaic.PureOps.Ideal
import Idealize.ShloMosaic.Lib.ValueIdx

noncomputable section

open scoped BigOperators

namespace Cert.Layers

open Idealize.ShloMosaic Idealize.ShloMosaic.ValueIdx

/-- An f32 array of a literal shape at the ideal instance. -/
abbrev Arr (s : Shape) : Type := (⟨s, .f32⟩ : BufTy).Contents (Elt Ideal)

variable (x : Arr ⟨3, ![1, 10000, 128]⟩) (adj : Arr ⟨3, ![1, 10000, 10000]⟩) (W1 : Arr ⟨2, ![128, 128]⟩) (b1 : Arr ⟨1, ![128]⟩)
  (W2 : Arr ⟨2, ![128, 128]⟩) (b2 : Arr ⟨1, ![128]⟩) (a : Arr ⟨0, ![]⟩)

/-- The f32 zero word read at the ideal instance. -/
def zero : Ideal .f32 := FloatOps.ofBits (F := Ideal) .f32 0x00000000#32

/-- The first linear layer. -/
def hid1 (n : Fin 10000) (d : Fin 128) : Ideal .f32 :=
  FloatOps.addf (∑ f : Fin 128, x (ix3 (0 : Fin 1) n f) * W1 (ix2 d f)) (b1 (ix1 d))

/-- The first propagation through the adjacency. -/
def agg1 (n : Fin 10000) (d : Fin 128) : Ideal .f32 :=
  ∑ k : Fin 10000, adj (ix3 (0 : Fin 1) n k) * hid1 x W1 b1 k d

/-- The activation, max(z, 0) + a · min(z, 0), on the first propagation. -/
def act (n : Fin 10000) (d : Fin 128) : Ideal .f32 :=
  FloatOps.addf (FloatOps.maximumf (agg1 x adj W1 b1 n d) zero)
    (FloatOps.mulf (a ix0) (FloatOps.minimumf (agg1 x adj W1 b1 n d) zero))

/-- The second linear layer. -/
def hid2 (n : Fin 10000) (d : Fin 128) : Ideal .f32 :=
  FloatOps.addf (∑ f : Fin 128, act x adj W1 b1 a n f * W2 (ix2 d f)) (b2 (ix1 d))

/-- The second propagation: the result. -/
def out (n : Fin 10000) (d : Fin 128) : Ideal .f32 :=
  ∑ k : Fin 10000, adj (ix3 (0 : Fin 1) n k) * hid2 x adj W1 b1 W2 b2 a k d

/-- The result as the [1, 10000, 128] array both programs return. -/
def result : Arr ⟨3, ![1, 10000, 128]⟩ := fun i => out x adj W1 b1 W2 b2 a (i 1) (i 2)

end Cert.Layers

end
-- ==== Proof.Ideal.Payloads.lean ====
/-
  The kernel's three stored values, read at an index at the ideal instance. Each `tpu.matmul` accumulates into a zero
  splat, so it is the plain sum of products over its one contracted axis; the bias row is broadcast down the rows;
  the activation is pointwise. So, with i a row and d a column:
    first region's store      (i, d) ↦ (∑ f, x(i,f) · w(f,d)) + b(0,d)
    a phase-0 strip's store   (r, d) ↦ (∑ f, φ(∑ k, a(0,r,k) · h(k,f)) · w(f,d)) + b(0,d),  φ(z) = max(z,0) + p(0,0)·min(z,0)
    a phase-1 block's store   (r, d) ↦ ∑ k, a(0,r,k) · s(k,d).
-/
import proofs.«120533_g28707561406990_cont_9to1_1291_9_alg».proof.Proof.Ideal.Dense
import proofs.«120533_g28707561406990_cont_9to1_1291_9_alg».proof.Proof.Ideal.AggRuns
import proofs.«120533_g28707561406990_cont_9to1_1291_9_alg».proof.Proof.Layers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal.Gen
open Idealize.ShloMosaic Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl

/-! ### The first layer's product: [10000, 128] · [128, 128] -/

theorem lhs_fc1_0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_fc1_1 (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
theorem rhs_fc1_0 (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem rhs_fc1_1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Into the zero splat the product is the plain sum over the one contracted axis. -/
theorem mm_fc1 (l : FVec Ideal S10000x128 .f32) (r : FVec Ideal S128x128 .f32) (p : Fin 10000) (q : Fin 128) :
    matmul dot_S10000x128_S128x128_S10000x128_1_0_0_1_n_n none l r (constant S10000x128 .f32 0x00000000#32) (ix2 p q) = ∑ k : Fin 128, l (ix2 p k) * r (ix2 k q) := by
  show FloatOps.matmul dot_S10000x128_S128x128_S10000x128_1_0_0_1_n_n none l r (constant S10000x128 .f32 0x00000000#32) (ix2 p q) = _
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact lhs_fc1_0 _ _
    | ⟨1, _⟩ => exact (lhs_fc1_1 _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (rhs_fc1_0 _ _).trans hk
    | ⟨1, _⟩ => exact rhs_fc1_1 _ _)
  rw [el, er]

/-! ### A strip times a whole matrix: [400, 10000] · [10000, 128] -/

theorem lhs_agg_0 (i : S400x128.Idx) (q : dot_S400x10000_S10000x128_S400x128_1_0_0_1_n_n.contr.Idx) : (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs_agg_1 (i : S400x128.Idx) (q : dot_S400x10000_S10000x128_S400x128_1_0_0_1_n_n.contr.Idx) : (dot_S400x10000_S10000x128_S400x128_1_0_0_1_n_n.lhsIdx i q 1).val = (q ⟨0, by decide⟩).val :=
  dot_S400x10000_S10000x128_S400x128_1_0_0_1_n_n.lhsIdx_val_of_single rfl i q
theorem rhs_agg_0 (i : S400x128.Idx) (q : dot_S400x10000_S10000x128_S400x128_1_0_0_1_n_n.contr.Idx) : (dot_S400x10000_S10000x128_S400x128_1_0_0_1_n_n.rhsIdx i q 0).val = (q ⟨0, by decide⟩).val :=
  dot_S400x10000_S10000x128_S400x128_1_0_0_1_n_n.rhsIdx_val_of_single rfl i q
theorem rhs_agg_1 (i : S400x128.Idx) (q : dot_S400x10000_S10000x128_S400x128_1_0_0_1_n_n.contr.Idx) : (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- Into the zero splat the product is the plain sum over the one contracted axis. -/
theorem mm_agg (l : FVec Ideal S400x10000 .f32) (r : FVec Ideal S10000x128 .f32) (p : Fin 400) (q : Fin 128) :
    matmul dot_S400x10000_S10000x128_S400x128_1_0_0_1_n_n none l r (constant S400x128 .f32 0x00000000#32) (ix2 p q) = ∑ k : Fin 10000, l (ix2 p k) * r (ix2 k q) := by
  show FloatOps.matmul dot_S400x10000_S10000x128_S400x128_1_0_0_1_n_n none l r (constant S400x128 .f32 0x00000000#32) (ix2 p q) = _
  rw [Ideal.matmul_constant_zero_apply, ← Equiv.sum_comp (ValueIdx.contrEquiv1 dot_S400x10000_S10000x128_S400x128_1_0_0_1_n_n 10000 rfl rfl).symm]
  refine Finset.sum_congr rfl fun k _ => ?_
  have hk := ValueIdx.contrEquiv1_symm_val dot_S400x10000_S10000x128_S400x128_1_0_0_1_n_n 10000 rfl rfl k
  have el : dot_S400x10000_S10000x128_S400x128_1_0_0_1_n_n.lhsIdx (ix2 p q) ((ValueIdx.contrEquiv1 dot_S400x10000_S10000x128_S400x128_1_0_0_1_n_n 10000 rfl rfl).symm k) = ix2 p k := funext fun a => Fin.ext (by
    match a with
    | ⟨0, _⟩ => exact lhs_agg_0 _ _
    | ⟨1, _⟩ => exact (lhs_agg_1 _ _).trans hk)
  have er : dot_S400x10000_S10000x128_S400x128_1_0_0_1_n_n.rhsIdx (ix2 p q) ((ValueIdx.contrEquiv1 dot_S400x10000_S10000x128_S400x128_1_0_0_1_n_n 10000 rfl rfl).symm k) = ix2 k q := funext fun a => Fin.ext (by
    match a with
    | ⟨0, _⟩ => exact (rhs_agg_0 _ _).trans hk
    | ⟨1, _⟩ => exact rhs_agg_1 _ _)
  rw [el, er]

/-! ### The second layer's product on a strip: [400, 128] · [128, 128] -/

theorem lhs_fc2_0 (i : S400x128.Idx) (q : dot_S400x128_S128x128_S400x128_1_0_0_1_n_n.contr.Idx) : (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem lhs_fc2_1 (i : S400x128.Idx) (q : dot_S400x128_S128x128_S400x128_1_0_0_1_n_n.contr.Idx) : (dot_S400x128_S128x128_S400x128_1_0_0_1_n_n.lhsIdx i q 1).val = (q ⟨0, by decide⟩).val :=
  dot_S400x128_S128x128_S400x128_1_0_0_1_n_n.lhsIdx_val_of_single rfl i q
theorem rhs_fc2_0 (i : S400x128.Idx) (q : dot_S400x128_S128x128_S400x128_1_0_0_1_n_n.contr.Idx) : (dot_S400x128_S128x128_S400x128_1_0_0_1_n_n.rhsIdx i q 0).val = (q ⟨0, by decide⟩).val :=
  dot_S400x128_S128x128_S400x128_1_0_0_1_n_n.rhsIdx_val_of_single rfl i q
theorem rhs_fc2_1 (i : S400x128.Idx) (q : dot_S400x128_S128x128_S400x128_1_0_0_1_n_n.contr.Idx) : (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- Into the zero splat the product is the plain sum over the one contracted axis. -/
theorem mm_fc2 (l : FVec Ideal S400x128 .f32) (r : FVec Ideal S128x128 .f32) (p : Fin 400) (q : Fin 128) :
    matmul dot_S400x128_S128x128_S400x128_1_0_0_1_n_n none l r (constant S400x128 .f32 0x00000000#32) (ix2 p q) = ∑ k : Fin 128, l (ix2 p k) * r (ix2 k q) := by
  show FloatOps.matmul dot_S400x128_S128x128_S400x128_1_0_0_1_n_n none l r (constant S400x128 .f32 0x00000000#32) (ix2 p q) = _
  rw [Ideal.matmul_constant_zero_apply, ← Equiv.sum_comp (ValueIdx.contrEquiv1 dot_S400x128_S128x128_S400x128_1_0_0_1_n_n 128 rfl rfl).symm]
  refine Finset.sum_congr rfl fun k _ => ?_
  have hk := ValueIdx.contrEquiv1_symm_val dot_S400x128_S128x128_S400x128_1_0_0_1_n_n 128 rfl rfl k
  have el : dot_S400x128_S128x128_S400x128_1_0_0_1_n_n.lhsIdx (ix2 p q) ((ValueIdx.contrEquiv1 dot_S400x128_S128x128_S400x128_1_0_0_1_n_n 128 rfl rfl).symm k) = ix2 p k := funext fun a => Fin.ext (by
    match a with
    | ⟨0, _⟩ => exact lhs_fc2_0 _ _
    | ⟨1, _⟩ => exact (lhs_fc2_1 _ _).trans hk)
  have er : dot_S400x128_S128x128_S400x128_1_0_0_1_n_n.rhsIdx (ix2 p q) ((ValueIdx.contrEquiv1 dot_S400x128_S128x128_S400x128_1_0_0_1_n_n 128 rfl rfl).symm k) = ix2 k q := funext fun a => Fin.ext (by
    match a with
    | ⟨0, _⟩ => exact (rhs_fc2_0 _ _).trans hk
    | ⟨1, _⟩ => exact rhs_fc2_1 _ _)
  rw [el, er]

/-! ## The payloads -/

/-- The first region's store. -/
theorem hidden_apply (x : Vec Ideal S10000x128 .f32) (w : Vec Ideal S128x128 .f32) (b : Vec Ideal S1x128 .f32)
    (n : Fin 10000) (d : Fin 128) :
    Dense.hidden x w b (ix2 n d)
      = (FloatOps.addf (F := Ideal) (φ := .f32) (∑ f : Fin 128, x (ix2 n f) * w (ix2 f d)) (b (ix2 (0 : Fin 1) d)) : Ideal .f32) := by
  unfold Dense.hidden
  rw [View.canon_unit_zero hz2]
  simp only [View.ld_unit_zero (S := S10000x128) hz2, View.ld_unit_zero (S := S128x128) hz2, View.ld_unit_zero (S := S1x128) hz2]
  unfold k0_pay1
  simp only [shapeCast_self]
  refine (congrArg₂ FloatOps.addf (mm_fc1 x w n d) (broadcastTo_1b_ab_apply b broadcasts_S1x128_S10000x128 n d)).trans ?_
  rfl

/-- The activation on one value. -/
def leaky (p z : Ideal .f32) : Ideal .f32 :=
  FloatOps.addf (F := Ideal) (φ := .f32) (FloatOps.maximumf z Layers.zero) (FloatOps.mulf p (FloatOps.minimumf z Layers.zero))

/-- A phase-0 strip's store. -/
theorem slabPay_apply (a : Vec Ideal S1x400x10000 .f32) (h : Vec Ideal S10000x128 .f32) (w : Vec Ideal S128x128 .f32)
    (b : Vec Ideal S1x128 .f32) (p : Vec Ideal S1x1 .f32) (r : Fin 400) (d : Fin 128) :
    Agg.slabPay a h w b p (ix2 r d)
      = (FloatOps.addf (F := Ideal) (φ := .f32) (∑ f : Fin 128, leaky (p (ix2 (0 : Fin 1) (0 : Fin 1)))
            (∑ k : Fin 10000, a (ix3 (0 : Fin 1) r k) * h (ix2 k f)) * w (ix2 f d)) (b (ix2 (0 : Fin 1) d)) : Ideal .f32) := by
  unfold Agg.slabPay
  simp only [View.ld_unit_zero (S := S1x400x10000) hz3, View.ld_unit_zero (S := S10000x128) hz2, View.ld_unit_zero (S := S128x128) hz2,
    View.ld_unit_zero (S := S1x128) hz2, View.ld_unit_zero (S := S1x1) hz2]
  unfold k1_pay2 k1_pay1
  simp only [shapeCast_self]
  refine (congrArg₂ FloatOps.addf (mm_fc2 _ w r d) (broadcastTo_1b_ab_apply b broadcasts_S1x128_S400x128 r d)).trans ?_
  refine congrArg₂ FloatOps.addf (Finset.sum_congr rfl fun f _ => ?_) rfl
  refine congrArg₂ (· * ·) ?_ rfl
  show leaky (extractAt ![0, 0] p inpos_S1x1_p0_0)
    (matmul dot_S400x10000_S10000x128_S400x128_1_0_0_1_n_n none (shapeCast S400x10000 a shapeCasts_S1x400x10000_S400x10000) h
      (constant S400x128 .f32 0x00000000#32) (ix2 r f)) = _
  rw [mm_agg]
  refine congrArg₂ leaky ?_ (Finset.sum_congr rfl fun k _ => ?_)
  · exact congrArg p (funext fun ax => Fin.ext (by match ax with | ⟨0, _⟩ => rfl | ⟨1, _⟩ => rfl))
  · exact congrArg₂ (· * ·) (shapeCast_1ab_ab_apply a shapeCasts_S1x400x10000_S400x10000 r k) rfl

/-- A phase-1 block's store. -/
theorem outBlk_apply (a : Vec Ideal S1x400x10000 .f32) (s : Vec Ideal S10000x128 .f32) (r : Fin 400) (d : Fin 128) :
    Agg.outBlk a s (ix2 r d) = ∑ k : Fin 10000, a (ix3 (0 : Fin 1) r k) * s (ix2 k d) := by
  unfold Agg.outBlk
  rw [View.canon_unit_zero hz2]
  simp only [View.ld_unit_zero (S := S1x400x10000) hz3, View.ld_unit_zero (S := S10000x128) hz2]
  unfold k1_pay3 k1_pay1
  rw [mm_agg]
  exact Finset.sum_congr rfl fun k _ => congrArg₂ (· * ·) (shapeCast_1ab_ab_apply a shapeCasts_S1x400x10000_S400x10000 r k) rfl

end Cert.KernelIdeal.Val

end
-- ==== Proof.Ideal.Value.lean ====
/-
  The idealized kernel's result as a function of its arguments. Reading the run's fold backwards:
  the host prefix reshapes x to [10000, 128], transposes the two weight matrices, and reshapes the biases to one row
  and the slope to [1, 1]; the first region's output array is the first layer (its one block is the whole array);
  in the second region every window but the adjacency's and the output's is a whole array, the adjacency strip at
  point t is rows [400·(t mod 25), +400), so the rows a phase-0 point stores are the second layer's rows of its strip,
  the scratch after phase 0 is the whole second layer, and the block phase-1 point t writes back is rows
  [400·(t − 25), +400) of adj · (second layer). Those 25 blocks tile the output array; the final reshape adds the unit axis.
-/
import proofs.«120533_g28707561406990_cont_9to1_1291_9_alg».proof.Proof.Ideal.Frame
import proofs.«120533_g28707561406990_cont_9to1_1291_9_alg».proof.Proof.Ideal.Payloads

set_option maxRecDepth 16384

noncomputable section

open scoped BigOperators

namespace Cert.KernelIdeal.Val

open Cert.KernelIdeal.Gen Cert.KernelIdeal.Whole
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (c : Dev nD)

/-! ## The arguments, and the specification at them -/

abbrev xA : Layers.Arr ⟨3, ![1, 10000, 128]⟩ := m ((c : Thread nD τ).loc main_arg0)
abbrev adjA : Layers.Arr ⟨3, ![1, 10000, 10000]⟩ := m ((c : Thread nD τ).loc main_arg1)
abbrev w1A : Layers.Arr ⟨2, ![128, 128]⟩ := m ((c : Thread nD τ).loc main_arg2)
abbrev b1A : Layers.Arr ⟨1, ![128]⟩ := m ((c : Thread nD τ).loc main_arg3)
abbrev w2A : Layers.Arr ⟨2, ![128, 128]⟩ := m ((c : Thread nD τ).loc main_arg4)
abbrev b2A : Layers.Arr ⟨1, ![128]⟩ := m ((c : Thread nD τ).loc main_arg5)
abbrev aA : Layers.Arr ⟨0, ![]⟩ := m ((c : Thread nD τ).loc main_arg6)

abbrev hid1 (n : Fin 10000) (d : Fin 128) : Ideal .f32 := Layers.hid1 (xA m c) (w1A m c) (b1A m c) n d
abbrev agg1 (n : Fin 10000) (d : Fin 128) : Ideal .f32 := Layers.agg1 (xA m c) (adjA m c) (w1A m c) (b1A m c) n d
abbrev act (n : Fin 10000) (d : Fin 128) : Ideal .f32 := Layers.act (xA m c) (adjA m c) (w1A m c) (b1A m c) (aA m c) n d
abbrev hid2 (n : Fin 10000) (d : Fin 128) : Ideal .f32 :=
  Layers.hid2 (xA m c) (adjA m c) (w1A m c) (b1A m c) (w2A m c) (b2A m c) (aA m c) n d
abbrev out (n : Fin 10000) (d : Fin 128) : Ideal .f32 :=
  Layers.out (xA m c) (adjA m c) (w1A m c) (b1A m c) (w2A m c) (b2A m c) (aA m c) n d

/-! ## After the host prefix -/

theorem feat_at (n : Fin 10000) (f : Fin 128) : Whole.V1 m c main_v0 (ix2 n f) = xA m c (ix3 (0 : Fin 1) n f) :=
  (congrFun (show (Whole.V1 m c main_v0 : S10000x128.Idx → Ideal .f32) = shapeCast S10000x128 (m ((c : Thread nD τ).loc main_arg0)) shapeCasts_S1x10000x128_S10000x128 from by
      show StableHlo.after hostOps0 (W0 m c) (Proc.devRef .tc main_v0) = _
      after_results
      all_goals rfl) (ix2 n f)).trans
    (shapeCast_1ab_ab_apply _ shapeCasts_S1x10000x128_S10000x128 n f)

theorem w1t_at (f d : Fin 128) : Whole.V1 m c main_v1 (ix2 f d) = w1A m c (ix2 d f) :=
  (congrFun (show (Whole.V1 m c main_v1 : S128x128.Idx → Ideal .f32) = transpose S128x128 [1, 0] (m ((c : Thread nD τ).loc main_arg2)) transposes_S128x128_S128x128_1_0 from by
      show StableHlo.after hostOps0 (W0 m c) (Proc.devRef .tc main_v1) = _
      after_results
      all_goals rfl) (ix2 f d)).trans
    (transpose_ix2_apply _ transposes_S128x128_S128x128_1_0 f d)

theorem w2t_at (f d : Fin 128) : Whole.V1 m c main_v2 (ix2 f d) = w2A m c (ix2 d f) :=
  (congrFun (show (Whole.V1 m c main_v2 : S128x128.Idx → Ideal .f32) = transpose S128x128 [1, 0] (m ((c : Thread nD τ).loc main_arg4)) transposes_S128x128_S128x128_1_0 from by
      show StableHlo.after hostOps0 (W0 m c) (Proc.devRef .tc main_v2) = _
      after_results
      all_goals rfl) (ix2 f d)).trans
    (transpose_ix2_apply _ transposes_S128x128_S128x128_1_0 f d)

theorem b1r_at (d : Fin 128) : Whole.V1 m c main_v3 (ix2 (0 : Fin 1) d) = b1A m c (ix1 d) :=
  (congrFun (show (Whole.V1 m c main_v3 : S1x128.Idx → Ideal .f32) = shapeCast S1x128 (m ((c : Thread nD τ).loc main_arg3)) shapeCasts_S128_S1x128 from by
      show StableHlo.after hostOps0 (W0 m c) (Proc.devRef .tc main_v3) = _
      after_results
      all_goals rfl) (ix2 (0 : Fin 1) d)).trans
    (shapeCast_a_1a_apply _ shapeCasts_S128_S1x128 (0 : Fin 1) d)

theorem b2r_at (d : Fin 128) : Whole.V1 m c main_v4 (ix2 (0 : Fin 1) d) = b2A m c (ix1 d) :=
  (congrFun (show (Whole.V1 m c main_v4 : S1x128.Idx → Ideal .f32) = shapeCast S1x128 (m ((c : Thread nD τ).loc main_arg5)) shapeCasts_S128_S1x128 from by
      show StableHlo.after hostOps0 (W0 m c) (Proc.devRef .tc main_v4) = _
      after_results
      all_goals rfl) (ix2 (0 : Fin 1) d)).trans
    (shapeCast_a_1a_apply _ shapeCasts_S128_S1x128 (0 : Fin 1) d)

theorem slope_at : Whole.V1 m c main_v5 (ix2 (0 : Fin 1) (0 : Fin 1)) = aA m c ix0 :=
  (congrFun (show (Whole.V1 m c main_v5 : S1x1.Idx → Ideal .f32) = shapeCast S1x1 (m ((c : Thread nD τ).loc main_arg6)) shapeCasts_S_S1x1 from by
      show StableHlo.after hostOps0 (W0 m c) (Proc.devRef .tc main_v5) = _
      after_results
      all_goals rfl) (ix2 (0 : Fin 1) (0 : Fin 1))).trans
    (shapeCast_apply _ shapeCasts_S_S1x1 _ ix0 (by
      have h1 := (S_.rowMajor ix0).isLt
      have h2 := (S1x1.rowMajor (ix2 (0 : Fin 1) (0 : Fin 1))).isLt
      have e1 : S_.numel = 1 := rfl
      have e2 : S1x1.numel = 1 := rfl
      omega))

/-! ## The first region -/

/-- The first region's output array is the first layer. -/
def firstLayer : Buf (Elt Ideal) ((c : Thread nD τ).loc main_v6) :=
  fun i => hid1 m c ⟨(i 0).val, (i 0).isLt⟩ ⟨(i 1).val, (i 1).isLt⟩

theorem first_flushed (t : Fin cfg0.N) :
    (Dense.dat (Whole.V1 m) c).flushed 3 t = ((cfg0.win 3).blk t).view.read (Elt Ideal) (firstLayer m c) := by
  show (cfg0.win 3).cut (grid0.coords t) ((Dense.dat (Whole.V1 m) c).after 3 t) = _
  rw [Dense.after_h]
  funext j
  obtain ⟨n, d, rfl⟩ : ∃ (n : Fin 10000) (d : Fin 128), j = ix2 n d := ⟨j 0, j 1, eq_ix2 j⟩
  refine (hidden_apply (Dense.blk (Whole.V1 m) c 0 t) (Dense.blk (Whole.V1 m) c 1 t) (Dense.blk (Whole.V1 m) c 2 t) n d).trans ?_
  have hemb : ((cfg0.win 3).blk t).view.emb (ix2 n d) = (ix2 n d : S10000x128.Idx) := funext fun a => Fin.ext (by
    match a with
    | ⟨0, _⟩ => show 0 * 10000 + 1 * n.val = n.val; omega
    | ⟨1, _⟩ => show 0 * 128 + 1 * d.val = d.val; omega)
  refine Eq.trans ?_ (congrArg (firstLayer m c) hemb.symm)
  show _ = Layers.hid1 (xA m c) (w1A m c) (b1A m c) n d
  unfold Layers.hid1
  refine congrArg₂ FloatOps.addf (Finset.sum_congr rfl fun f _ => ?_) ?_
  · refine congrArg₂ (· * ·) ?_ ?_
    · show Whole.V1 m c main_v0 (((cfg0.win 0).blk t).view.emb (ix2 n f)) = _
      exact (congrArg (Whole.V1 m c main_v0) (funext fun a => Fin.ext (by
        match a with
        | ⟨0, _⟩ => show 0 * 10000 + 1 * n.val = n.val; omega
        | ⟨1, _⟩ => show 0 * 128 + 1 * f.val = f.val; omega))).trans (feat_at m c n f)
    · show Whole.V1 m c main_v1 (((cfg0.win 1).blk t).view.emb (ix2 f d)) = _
      exact (congrArg (Whole.V1 m c main_v1) (funext fun a => Fin.ext (by
        match a with
        | ⟨0, _⟩ => show 0 * 128 + 1 * f.val = f.val; omega
        | ⟨1, _⟩ => show 0 * 128 + 1 * d.val = d.val; omega))).trans (w1t_at m c f d)
  · show Whole.V1 m c main_v3 (((cfg0.win 2).blk t).view.emb (ix2 (0 : Fin 1) d)) = _
    exact (congrArg (Whole.V1 m c main_v3) (funext fun a => Fin.ext (by
      match a with
      | ⟨0, _⟩ => show 0 * 1 + 1 * 0 = 0; omega
      | ⟨1, _⟩ => show 0 * 128 + 1 * d.val = d.val; omega))).trans (b1r_at m c d)

theorem mem_firstblk (t : Fin cfg0.N) (i : S10000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v6).slice (win0_3.rect t)).set ↔ _
  rw [View.set_slice_whole, Rect.mem_set_unit]
  exact Iff.rfl

theorem first_cover (i : S10000x128.Idx) : ∃ t : Fin cfg0.N, (cfg0.win 3).flush t = true ∧ i ∈ ((cfg0.win 3).blk t).view.set := by
  have hi0 : (i 0).val < 10000 := (i 0).isLt
  have hi1 : (i 1).val < 128 := (i 1).isLt
  refine ⟨t0_0, flush0_3 t0_0, (mem_firstblk t0_0 i).mpr fun a => ?_⟩
  match a with
  | ⟨0, _⟩ => show 0 * 10000 ≤ (i 0).val ∧ (i 0).val < 0 * 10000 + 10000; omega
  | ⟨1, _⟩ => show 0 * 128 ≤ (i 1).val ∧ (i 1).val < 0 * 128 + 128; omega

theorem first_final : (Dense.dat (Whole.V1 m) c).arrAt 3 cfg0.N = firstLayer m c :=
  (Dense.dat (Whole.V1 m) c).arrAt_eq_of_cover 3 (firstLayer m c) (fun t _ => first_flushed m c t) (fun i => first_cover i)

/-- What the second region finds in the first region's output array. -/
theorem hid_at (k : Fin 10000) (f : Fin 128) : Whole.V2 m c main_v6 (ix2 k f) = hid1 m c k f :=
  (congrFun ((W2_arr m c 3).trans (first_final m c)) (ix2 k f))

theorem V2_adj : Whole.V2 m c main_arg1 = adjA m c :=
  (W2_of_ne m c main_arg1 (by decide)).trans (StableHlo.after_of_writes_sub hostOps0 _ hostOps0_writes (by decide))
theorem V2_w2t : Whole.V2 m c main_v2 = Whole.V1 m c main_v2 := W2_of_ne m c main_v2 (by decide)
theorem V2_b2r : Whole.V2 m c main_v4 = Whole.V1 m c main_v4 := W2_of_ne m c main_v4 (by decide)
theorem V2_slope : Whole.V2 m c main_v5 = Whole.V1 m c main_v5 := W2_of_ne m c main_v5 (by decide)

/-! ## The second region's blocks -/

/-- The printed index maps over the grid. -/
theorem idx_facts : ∀ t : Fin cfg1.N,
    win1_0.index t (0 : Fin 3) = 0 ∧ win1_0.index t (1 : Fin 3) = t.val % 25 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val - 25 ∧ win1_5.index t (1 : Fin 2) = 0 :=
  (by decide +kernel : ∀ t : Fin grid1.N, _)

theorem strip_at (t : Fin cfg1.N) (r : Fin 400) (k : Fin 10000) (n : Fin 10000) (hn : n.val = 400 * (t.val % 25) + r.val) :
    Agg.blk (Whole.V2 m) c 0 t (ix3 (0 : Fin 1) r k) = adjA m c (ix3 (0 : Fin 1) n k) := by
  obtain ⟨e0, e1, e2, -⟩ := idx_facts t
  show Whole.V2 m c main_arg1 (((cfg1.win 0).blk t).view.emb (ix3 (0 : Fin 1) r k)) = _
  refine (congrArg (Whole.V2 m c main_arg1) (funext fun a => Fin.ext ?_)).trans (congrFun (V2_adj m c) _)
  match a with
  | ⟨0, _⟩ => show win1_0.index t (0 : Fin 3) * 1 + 1 * 0 = 0; rw [e0]
  | ⟨1, _⟩ => show win1_0.index t (1 : Fin 3) * 400 + 1 * r.val = n.val; rw [e1, hn]; omega
  | ⟨2, _⟩ => show win1_0.index t (2 : Fin 3) * 10000 + 1 * k.val = k.val; rw [e2]; omega

theorem hidblk_at (t : Fin cfg1.N) (k : Fin 10000) (f : Fin 128) : Agg.blk (Whole.V2 m) c 1 t (ix2 k f) = hid1 m c k f := by
  obtain ⟨-, -, -, e0, e1, -⟩ := idx_facts t
  show Whole.V2 m c main_v6 (((cfg1.win 1).blk t).view.emb (ix2 k f)) = _
  refine (congrArg (Whole.V2 m c main_v6) (funext fun a => Fin.ext ?_)).trans (hid_at m c k f)
  match a with
  | ⟨0, _⟩ => show win1_1.index t (0 : Fin 2) * 10000 + 1 * k.val = k.val; rw [e0]; omega
  | ⟨1, _⟩ => show win1_1.index t (1 : Fin 2) * 128 + 1 * f.val = f.val; rw [e1]; omega

theorem w2blk_at (t : Fin cfg1.N) (f d : Fin 128) : Agg.blk (Whole.V2 m) c 2 t (ix2 f d) = w2A m c (ix2 d f) := by
  obtain ⟨-, -, -, -, -, e0, e1, -⟩ := idx_facts t
  show Whole.V2 m c main_v2 (((cfg1.win 2).blk t).view.emb (ix2 f d)) = _
  refine (congrArg (Whole.V2 m c main_v2) (funext fun a => Fin.ext ?_)).trans ((congrFun (V2_w2t m c) _).trans (w2t_at m c f d))
  match a with
  | ⟨0, _⟩ => show win1_2.index t (0 : Fin 2) * 128 + 1 * f.val = f.val; rw [e0]; omega
  | ⟨1, _⟩ => show win1_2.index t (1 : Fin 2) * 128 + 1 * d.val = d.val; rw [e1]; omega

theorem b2blk_at (t : Fin cfg1.N) (d : Fin 128) : Agg.blk (Whole.V2 m) c 3 t (ix2 (0 : Fin 1) d) = b2A m c (ix1 d) := by
  obtain ⟨-, -, -, -, -, -, -, e0, e1, -⟩ := idx_facts t
  show Whole.V2 m c main_v4 (((cfg1.win 3).blk t).view.emb (ix2 (0 : Fin 1) d)) = _
  refine (congrArg (Whole.V2 m c main_v4) (funext fun a => Fin.ext ?_)).trans ((congrFun (V2_b2r m c) _).trans (b2r_at m c d))
  match a with
  | ⟨0, _⟩ => show win1_3.index t (0 : Fin 2) * 1 + 1 * 0 = 0; rw [e0]
  | ⟨1, _⟩ => show win1_3.index t (1 : Fin 2) * 128 + 1 * d.val = d.val; rw [e1]; omega

theorem pablk_at (t : Fin cfg1.N) : Agg.blk (Whole.V2 m) c 4 t (ix2 (0 : Fin 1) (0 : Fin 1)) = aA m c ix0 := by
  obtain ⟨-, -, -, -, -, -, -, -, -, e0, e1, -⟩ := idx_facts t
  show Whole.V2 m c main_v5 (((cfg1.win 4).blk t).view.emb (ix2 (0 : Fin 1) (0 : Fin 1))) = _
  refine (congrArg (Whole.V2 m c main_v5) (funext fun a => Fin.ext ?_)).trans ((congrFun (V2_slope m c) _).trans (slope_at m c))
  match a with
  | ⟨0, _⟩ => show win1_4.index t (0 : Fin 2) * 1 + 1 * 0 = 0; rw [e0]
  | ⟨1, _⟩ => show win1_4.index t (1 : Fin 2) * 1 + 1 * 0 = 0; rw [e1]

/-! ## The scratch after phase 0 is the second layer -/

theorem rows_at (t : Fin cfg1.N) (r : Fin 400) (d : Fin 128) (n : Fin 10000) (hn : n.val = 400 * (t.val % 25) + r.val) :
    Agg.rows (Whole.V2 m) c t (ix2 r d) = hid2 m c n d := by
  unfold Agg.rows
  refine (slabPay_apply (Agg.blk (Whole.V2 m) c 0 t) (Agg.blk (Whole.V2 m) c 1 t) (Agg.blk (Whole.V2 m) c 2 t) (Agg.blk (Whole.V2 m) c 3 t)
    (Agg.blk (Whole.V2 m) c 4 t) r d).trans ?_
  show _ = Layers.hid2 (xA m c) (adjA m c) (w1A m c) (b1A m c) (w2A m c) (b2A m c) (aA m c) n d
  unfold Layers.hid2
  refine congrArg₂ FloatOps.addf (Finset.sum_congr rfl fun f _ => ?_) (b2blk_at m c t d)
  refine congrArg₂ (· * ·) ?_ (w2blk_at m c t f d)
  show leaky _ _ = leaky (aA m c ix0) (Layers.agg1 (xA m c) (adjA m c) (w1A m c) (b1A m c) n f)
  refine congrArg₂ leaky (pablk_at m c t) ?_
  unfold Layers.agg1
  exact Finset.sum_congr rfl fun k _ => congrArg₂ (· * ·) (strip_at m c t r k n hn) (hidblk_at m c t k f)

theorem second_at (k : Fin 10000) (d : Fin 128) : Agg.second (Whole.V2 m) c (ix2 k d) = hid2 m c k d := by
  unfold Agg.second
  refine (rows_at m c (Agg.stripPt k.val) ⟨k.val % 400, Nat.mod_lt _ (by decide)⟩ d k ?_)
  show k.val = 400 * (((k.val / 400) % 25) % 25) + k.val % 400
  have := k.isLt
  omega

/-! ## The result array -/

/-- adj · (second layer), as the second region's output array. -/
def product : Buf (Elt Ideal) ((c : Thread nD τ).loc main_v7) :=
  fun i => out m c ⟨(i 0).val, (i 0).isLt⟩ ⟨(i 1).val, (i 1).isLt⟩

theorem out_flushed (t : Fin cfg1.N) (ht : (cfg1.win 5).flush t = true) :
    (Agg.dat (Whole.V2 m) c).flushed 5 t = ((cfg1.win 5).blk t).view.read (Elt Ideal) (product m c) := by
  have h25 : 25 ≤ t.val := by rw [Agg.flush_out t] at ht; exact of_decide_eq_true ht
  have h50 : t.val < 50 := lt_of_lt_of_eq t.isLt N_1
  obtain ⟨-, -, -, -, -, -, -, -, -, -, -, e0, e1⟩ := idx_facts t
  show (cfg1.win 5).cut (grid1.coords t) ((Agg.dat (Whole.V2 m) c).after 5 t) = _
  rw [Agg.after_out]
  funext j
  obtain ⟨r, d, rfl⟩ : ∃ (r : Fin 400) (d : Fin 128), j = ix2 r d := ⟨j 0, j 1, eq_ix2 j⟩
  have hr := r.isLt
  refine (outBlk_apply (Agg.blk (Whole.V2 m) c 0 t) (Agg.second (Whole.V2 m) c) r d).trans ?_
  have hn : 400 * (t.val % 25) + r.val < 10000 := by omega
  have hemb : ((cfg1.win 5).blk t).view.emb (ix2 r d) = (ix2 (⟨400 * (t.val % 25) + r.val, hn⟩ : Fin 10000) d : S10000x128.Idx) :=
    funext fun a => Fin.ext (by
      match a with
      | ⟨0, _⟩ => show win1_5.index t (0 : Fin 2) * 400 + 1 * r.val = 400 * (t.val % 25) + r.val; rw [e0]; omega
      | ⟨1, _⟩ => show win1_5.index t (1 : Fin 2) * 128 + 1 * d.val = d.val; rw [e1]; omega)
  refine Eq.trans ?_ (congrArg (product m c) hemb.symm)
  show _ = Layers.out (xA m c) (adjA m c) (w1A m c) (b1A m c) (w2A m c) (b2A m c) (aA m c) ⟨400 * (t.val % 25) + r.val, hn⟩ d
  unfold Layers.out
  exact Finset.sum_congr rfl fun k _ => congrArg₂ (· * ·) (strip_at m c t r k ⟨400 * (t.val % 25) + r.val, hn⟩ rfl) (second_at m c k d)

theorem mem_outblk (t : Fin cfg1.N) (i : S10000x128.Idx) :
    i ∈ ((cfg1.win 5).blk t).view.set ↔ ∀ a : Fin 2, win1_5.index t a * S400x128.size a ≤ (i a).val ∧ (i a).val < win1_5.index t a * S400x128.size a + S400x128.size a := by
  show i ∈ ((View.whole main_v7).slice (win1_5.rect t)).set ↔ _
  rw [View.set_slice_whole, Rect.mem_set_unit]
  exact Iff.rfl

theorem out_cover (i : S10000x128.Idx) : ∃ t : Fin cfg1.N, (cfg1.win 5).flush t = true ∧ i ∈ ((cfg1.win 5).blk t).view.set := by
  have hi0 : (i 0).val < 10000 := (i 0).isLt
  have hi1 : (i 1).val < 128 := (i 1).isLt
  have hlt : 25 + (i 0).val / 400 < cfg1.N := lt_of_lt_of_eq (by omega : 25 + (i 0).val / 400 < 50) N_1.symm
  obtain ⟨-, -, -, -, -, -, -, -, -, -, -, e0, e1⟩ := idx_facts ⟨25 + (i 0).val / 400, hlt⟩
  refine ⟨⟨25 + (i 0).val / 400, hlt⟩, ?_, (mem_outblk _ i).mpr fun a => ?_⟩
  · rw [Agg.flush_out]; exact decide_eq_true (by show 25 ≤ 25 + (i 0).val / 400; omega)
  · match a with
    | ⟨0, _⟩ =>
      show win1_5.index ⟨25 + (i 0).val / 400, hlt⟩ (0 : Fin 2) * 400 ≤ (i 0).val ∧ (i 0).val < win1_5.index ⟨25 + (i 0).val / 400, hlt⟩ (0 : Fin 2) * 400 + 400
      rw [e0]
      show (25 + (i 0).val / 400 - 25) * 400 ≤ (i 0).val ∧ (i 0).val < (25 + (i 0).val / 400 - 25) * 400 + 400
      omega
    | ⟨1, _⟩ =>
      show win1_5.index ⟨25 + (i 0).val / 400, hlt⟩ (1 : Fin 2) * 128 ≤ (i 1).val ∧ (i 1).val < win1_5.index ⟨25 + (i 0).val / 400, hlt⟩ (1 : Fin 2) * 128 + 128
      rw [e1]; omega

/-- The 25 phase-1 blocks tile the output array. -/
theorem out_final : (Agg.dat (Whole.V2 m) c).arrAt 5 cfg1.N = product m c :=
  (Agg.dat (Whole.V2 m) c).arrAt_eq_of_cover 5 (product m c) (fun t ht => out_flushed m c t ht) (fun i => out_cover i)

/-- The result buffer at the end of the run is the specification's result. -/
theorem result_final : (W4 m c (Proc.devRef .tc main_v8) : S1x10000x128.Idx → Ideal .f32)
    = Layers.result (xA m c) (adjA m c) (w1A m c) (b1A m c) (w2A m c) (b2A m c) (aA m c) := by
  have e : (W4 m c (Proc.devRef .tc main_v8) : S1x10000x128.Idx → Ideal .f32)
      = shapeCast S1x10000x128 (W3 m c (Proc.devRef .tc main_v7)) shapeCasts_S10000x128_S1x10000x128 := by
    show StableHlo.after hostOps2 (W3 m c) (Proc.devRef .tc main_v8) = _
    after_results
    rfl
  rw [e]
  funext i
  obtain ⟨z, n, d, rfl⟩ : ∃ (z : Fin 1) (n : Fin 10000) (d : Fin 128), i = ix3 z n d := ⟨i 0, i 1, i 2, eq_ix3 i⟩
  refine (shapeCast_ab_1ab_apply _ shapeCasts_S10000x128_S1x10000x128 z n d).trans ?_
  exact congrFun ((W3_arr m c 5).trans (out_final m c)) (ix2 n d)

/-- The run, read: the result buffer ends at the specification's result of the arguments, the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v8) = Layers.result (xA m c) (adjA m c) (w1A m c) (b1A m c) (w2A m c) (b2A m c) (aA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c _ (mem_uc main_v8 (by decide))).trans (result_final m c),
      (h c _ (mem_uc main_arg0 (by decide))).trans (W4_main_arg0 m c),
      (h c _ (mem_uc main_arg1 (by decide))).trans (W4_main_arg1 m c),
      (h c _ (mem_uc main_arg2 (by decide))).trans (W4_main_arg2 m c),
      (h c _ (mem_uc main_arg3 (by decide))).trans (W4_main_arg3 m c),
      (h c _ (mem_uc main_arg4 (by decide))).trans (W4_main_arg4 m c),
      (h c _ (mem_uc main_arg5 (by decide))).trans (W4_main_arg5 m c),
      (h c _ (mem_uc main_arg6 (by decide))).trans (W4_main_arg6 m c)⟩) (run_main m ρ)

end Cert.KernelIdeal.Val

end
-- ==== Proof.RefValue.lean ====
/-
  The reference's result, read index by index: each stage of its generated read-back is one layer of the
  specification. The two `einsum`s with the weights contract the feature axis of x (resp. of the activated matrix)
  with the SECOND axis of W1 (resp. W2); the two with the adjacency are batched over the leading axis of extent 1
  and contract the adjacency's last axis with the node axis; the biases and the scalars are broadcast.
-/
import proofs.«120533_g28707561406990_cont_9to1_1291_9_alg».proof.Proof.Gen.ReferenceIdeal.Run
import proofs.«120533_g28707561406990_cont_9to1_1291_9_alg».proof.Proof.Gen.ReferenceIdeal.Read
import proofs.«120533_g28707561406990_cont_9to1_1291_9_alg».proof.Proof.Layers

noncomputable section

open scoped BigOperators

namespace Cert.ReferenceIdeal.RefValue

open Cert.ReferenceIdeal Cert.ReferenceIdeal.Gen Cert.ReferenceIdeal.Read Cert.Layers
open Idealize.ShloMosaic Idealize.ShloMosaic.ValueIdx

variable (x0 : (⟨S1x10000x128, .f32⟩ : BufTy).Contents (Elt Ideal)) (x1 : (⟨S1x10000x10000, .f32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S_, .f32⟩ : BufTy).Contents (Elt Ideal))

/-- x · W1ᵀ + b1. -/
theorem hid1_eq (n : Fin 10000) (d : Fin 128) :
    val_main_v3 (F := Ideal) x0 x2 x3 (ix3 (0 : Fin 1) n d) = hid1 x0 x2 x3 n d := by
  rw [val_main_v3_apply, val_main_v0_apply, val_main_v2_apply, val_main_v1_apply]
  unfold hid1
  have eL : ∀ k, lidx_main_v0 (ix3 (0 : Fin 1) n d) k = ix3 (0 : Fin 1) n k := fun k => funext fun a => Fin.ext (by match a with | ⟨0, _⟩ => rfl | ⟨1, _⟩ => rfl | ⟨2, _⟩ => rfl)
  have eR : ∀ k, ridx_main_v0 (ix3 (0 : Fin 1) n d) k = ix2 d k := fun k => funext fun a => Fin.ext (by match a with | ⟨0, _⟩ => rfl | ⟨1, _⟩ => rfl)
  have eB : idx_main_v1 (idx_main_v2 (ix3 (0 : Fin 1) n d)) = ix1 d := funext fun a => Fin.ext (by match a with | ⟨0, _⟩ => rfl)
  refine congrArg₂ FloatOps.addf (Finset.sum_congr rfl fun k _ => ?_) (congrArg x3 eB)
  exact congrArg₂ (· * ·) (congrArg x0 (eL k)) (congrArg x2 (eR k))

/-- adj · (first layer). -/
theorem agg1_eq (n : Fin 10000) (d : Fin 128) :
    val_main_v4 (F := Ideal) x0 x1 x2 x3 (ix3 (0 : Fin 1) n d) = agg1 x0 x1 x2 x3 n d := by
  rw [val_main_v4_apply]
  unfold agg1
  have eL : ∀ k, lidx_main_v4 (ix3 (0 : Fin 1) n d) k = ix3 (0 : Fin 1) n k := fun k => funext fun a => Fin.ext (by match a with | ⟨0, _⟩ => rfl | ⟨1, _⟩ => rfl | ⟨2, _⟩ => rfl)
  have eR : ∀ k, ridx_main_v4 (ix3 (0 : Fin 1) n d) k = ix3 (0 : Fin 1) k d := fun k => funext fun a => Fin.ext (by match a with | ⟨0, _⟩ => rfl | ⟨1, _⟩ => rfl | ⟨2, _⟩ => rfl)
  refine Finset.sum_congr rfl fun k _ => ?_
  exact congrArg₂ (· * ·) (congrArg x1 (eL k))
    ((congrArg (val_main_v3 (F := Ideal) x0 x2 x3) (eR k)).trans (hid1_eq x0 x2 x3 k d))

/-- The activation. -/
theorem act_eq (n : Fin 10000) (d : Fin 128) :
    val_main_v11 (F := Ideal) x0 x1 x2 x3 x6 (ix3 (0 : Fin 1) n d) = act x0 x1 x2 x3 x6 n d := by
  rw [val_main_v11_apply, val_main_v6_apply, val_main_v10_apply, val_main_v8_apply, val_main_v9_apply, val_main_v5_apply,
    val_main_v7_apply, val_main_cst_apply, val_main_cst_0_apply, agg1_eq]
  rfl

/-- (activation) · W2ᵀ + b2. -/
theorem hid2_eq (n : Fin 10000) (d : Fin 128) :
    val_main_v15 (F := Ideal) x0 x1 x2 x3 x4 x5 x6 (ix3 (0 : Fin 1) n d) = hid2 x0 x1 x2 x3 x4 x5 x6 n d := by
  rw [val_main_v15_apply, val_main_v12_apply, val_main_v14_apply, val_main_v13_apply]
  unfold hid2
  have eL : ∀ k, lidx_main_v12 (ix3 (0 : Fin 1) n d) k = ix3 (0 : Fin 1) n k := fun k => funext fun a => Fin.ext (by match a with | ⟨0, _⟩ => rfl | ⟨1, _⟩ => rfl | ⟨2, _⟩ => rfl)
  have eR : ∀ k, ridx_main_v12 (ix3 (0 : Fin 1) n d) k = ix2 d k := fun k => funext fun a => Fin.ext (by match a with | ⟨0, _⟩ => rfl | ⟨1, _⟩ => rfl)
  have eB : idx_main_v13 (idx_main_v14 (ix3 (0 : Fin 1) n d)) = ix1 d := funext fun a => Fin.ext (by match a with | ⟨0, _⟩ => rfl)
  refine congrArg₂ FloatOps.addf (Finset.sum_congr rfl fun k _ => ?_) (congrArg x5 eB)
  exact congrArg₂ (· * ·) ((congrArg (val_main_v11 (F := Ideal) x0 x1 x2 x3 x6) (eL k)).trans (act_eq x0 x1 x2 x3 x6 n k))
    (congrArg x4 (eR k))

/-- adj · (second layer). -/
theorem out_eq (n : Fin 10000) (d : Fin 128) :
    val_main_v16 (F := Ideal) x0 x1 x2 x3 x4 x5 x6 (ix3 (0 : Fin 1) n d) = out x0 x1 x2 x3 x4 x5 x6 n d := by
  rw [val_main_v16_apply]
  unfold out
  have eL : ∀ k, lidx_main_v16 (ix3 (0 : Fin 1) n d) k = ix3 (0 : Fin 1) n k := fun k => funext fun a => Fin.ext (by match a with | ⟨0, _⟩ => rfl | ⟨1, _⟩ => rfl | ⟨2, _⟩ => rfl)
  have eR : ∀ k, ridx_main_v16 (ix3 (0 : Fin 1) n d) k = ix3 (0 : Fin 1) k d := fun k => funext fun a => Fin.ext (by match a with | ⟨0, _⟩ => rfl | ⟨1, _⟩ => rfl | ⟨2, _⟩ => rfl)
  refine Finset.sum_congr rfl fun k _ => ?_
  exact congrArg₂ (· * ·) (congrArg x1 (eL k))
    ((congrArg (val_main_v15 (F := Ideal) x0 x1 x2 x3 x4 x5 x6) (eR k)).trans (hid2_eq x0 x1 x2 x3 x4 x5 x6 k d))

/-- The reference's last stage is the specification's result. -/
theorem result_eq : val_main_v16 (F := Ideal) x0 x1 x2 x3 x4 x5 x6 = result x0 x1 x2 x3 x4 x5 x6 := by
  funext i
  obtain ⟨z, n, d, rfl⟩ : ∃ (z : Fin 1) (n : Fin 10000) (d : Fin 128), i = ix3 z n d := ⟨i 0, i 1, i 2, eq_ix3 i⟩
  obtain rfl : z = 0 := Subsingleton.elim _ _
  exact out_eq x0 x1 x2 x3 x4 x5 x6 n d

end Cert.ReferenceIdeal.RefValue

end
-- ==== Proof.lean ====
/-
  The certificate of a two-layer graph convolution with a dense adjacency: out = adj · (φ(adj · (x·W1ᵀ + b1))·W2ᵀ + b2),
  φ(z) = max(z, 0) + a·min(z, 0), over 10000 nodes and 128 features.
  The kernel is two pallas_calls. The first computes the first linear layer whole. The second walks a 2 × 25 grid:
  in phase 0 each point multiplies a 400-row strip of the adjacency by the first layer, applies φ and the second
  linear layer, and parks the 400 rows in a scratch that stays in VMEM; in phase 1 each point multiplies the same strip
  by the now complete scratch and writes the 400 result rows back. The reference does the same five steps on whole
  arrays. At the ideal instance every contraction is a finite sum of products in the extended reals, and both
  programs form the same sums of the same products with the same pointwise operations between them, so the results
  agree term by term: no sum is re-associated, no law of arithmetic is used, and the precondition (finite inputs) is
  not needed.
  Frames: each kernel program's run goes through the several-regions launch with one record per pallas_call (the
  second region's invariant carries the scratch: before point n, the strips of the phase-0 points below n hold their
  rows); the reference's frame is its generated run with the result dropped.
-/
import proofs.«120533_g28707561406990_cont_9to1_1291_9_alg».proof.Defs
import proofs.«120533_g28707561406990_cont_9to1_1291_9_alg».proof.Proof.Gen.Kernel
import proofs.«120533_g28707561406990_cont_9to1_1291_9_alg».proof.Proof.Gen.KernelIdeal
import proofs.«120533_g28707561406990_cont_9to1_1291_9_alg».proof.Proof.Gen.ReferenceIdeal
import proofs.«120533_g28707561406990_cont_9to1_1291_9_alg».proof.Proof.Gen.Pre_finite_inputs
import proofs.«120533_g28707561406990_cont_9to1_1291_9_alg».proof.Proof.Gen.ReferenceIdeal.Run
import proofs.«120533_g28707561406990_cont_9to1_1291_9_alg».proof.Proof.Gen.ReferenceIdeal.Read
import proofs.«120533_g28707561406990_cont_9to1_1291_9_alg».proof.Proof.Bits.Frame
import proofs.«120533_g28707561406990_cont_9to1_1291_9_alg».proof.Proof.Ideal.Value
import proofs.«120533_g28707561406990_cont_9to1_1291_9_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end and leaves its arguments as launched. -/
theorem frame_k : Cert.frame_Kernel := fun m ρ _ => Cert.Kernel.Whole.frame m ρ

/-- So does its idealization. -/
theorem frame_ki : Cert.frame_KernelIdeal := fun m ρ _ => Cert.KernelIdeal.Whole.frame m ρ

/-- The reference is host operations only: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at the specification's result of the (agreeing) arguments. -/
theorem algebraic : Cert.algebraic_KernelIdeal_ReferenceIdeal := by
  intro m ρ m' ρ' _ hagree
  refine ⟨fun c => Cert.Layers.result (Cert.KernelIdeal.Val.xA m c) (Cert.KernelIdeal.Val.adjA m c) (Cert.KernelIdeal.Val.w1A m c)
    (Cert.KernelIdeal.Val.b1A m c) (Cert.KernelIdeal.Val.w2A m c) (Cert.KernelIdeal.Val.b2A m c) (Cert.KernelIdeal.Val.aA m c),
    Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [h0, h1, h2, h3, h4, h5, h6]
  exact (Cert.ReferenceIdeal.Read.val_main_v16_eq _ _ _ _ _ _ _).trans (Cert.ReferenceIdeal.RefValue.result_eq _ _ _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
